-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x256x64 : Shape := ⟨4, ![4, 512, 256, 64]⟩
abbrev S4x256 : Shape := ⟨2, ![4, 256]⟩
abbrev S_ : Shape := ⟨0, ![]⟩
abbrev S512 : Shape := ⟨1, ![512]⟩
abbrev S512x768 : Shape := ⟨2, ![512, 768]⟩

class Facts : Prop where
  bcast_S_S4x512x256x64 : S_.BroadcastsInDim S4x512x256x64 (![] : Fin 0 → Fin S4x512x256x64.rank)
  reducesTo_S4x512x256x64_S_d0_1_2_3 : S4x512x256x64.ReducesTo [0, 1, 2, 3] S_
  h_S_ : 0 < S_.numel
  bcast_S_S4x256 : S_.BroadcastsInDim S4x256 (![] : Fin 0 → Fin S4x256.rank)
  reducesTo_S4x256_S_d0_1 : S4x256.ReducesTo [0, 1] S_
  reducesTo_S_S_d : S_.ReducesTo [] S_
  bcast_S_S512 : S_.BroadcastsInDim S512 (![] : Fin 0 → Fin S512.rank)
  reducesTo_S512_S_d0 : S512.ReducesTo [0] S_
  bcast_S_S512x768 : S_.BroadcastsInDim S512x768 (![] : Fin 0 → Fin S512x768.rank)
  reducesTo_S512x768_S_d0_1 : S512x768.ReducesTo [0, 1] S_

variable [Facts]

def fn_part2 {F : FTy → Type} [FloatOps F] (main_arg8 : FVec F S512 .f32) (main_arg9 : FVec F S512 .f32) (main_v32 : IVec S_ 1) (main_v33 : FVec F S_ .f32) : IVec S_ 1 :=
  let main_cst_12 : FVec F S_ .f32 := constant S_ .f32 0x7F800000#32
  let main_v34 : IVec S_ 1 := cmpf .olt main_v33 main_cst_12
  let main_c_13 : IVec S_ 1 := constantI S_ 1 1#1
  let main_v35 : IVec S_ 1 := (fun x v => Host.reduce IntOp.andi x v reducesTo_S_S_d h_S_) main_v34 main_c_13
  let main_v36 : IVec S_ 1 := andi main_v32 main_v35
  let main_v37 : FVec F S512 .f32 := Host.absf main_arg8
  let main_cst_14 : FVec F S_ .f32 := constant S_ .f32 0x7F800000#32
  let main_v38 : FVec F S512 .f32 := broadcastInDim S512 ![] bcast_S_S512 main_cst_14
  let main_v39 : IVec S512 1 := cmpf .olt main_v37 main_v38
  let main_c_15 : IVec S_ 1 := constantI S_ 1 1#1
  let main_v40 : IVec S_ 1 := (fun x v => Host.reduce IntOp.andi x v reducesTo_S512_S_d0 h_S_) main_v39 main_c_15
  let main_v41 : IVec S_ 1 := andi main_v36 main_v40
  let main_v42 : FVec F S512 .f32 := Host.absf main_arg9
  let main_cst_16 : FVec F S_ .f32 := constant S_ .f32 0x7F800000#32
  let main_v43 : FVec F S512 .f32 := broadcastInDim S512 ![] bcast_S_S512 main_cst_16
  let main_v44 : IVec S512 1 := cmpf .olt main_v42 main_v43
  let main_c_17 : IVec S_ 1 := constantI S_ 1 1#1
  let main_v45 : IVec S_ 1 := (fun x v => Host.reduce IntOp.andi x v reducesTo_S512_S_d0 h_S_) main_v44 main_c_17
  let main_v46 : IVec S_ 1 := andi main_v41 main_v45
  main_v46

def fn_part1 {F : FTy → Type} [FloatOps F] (main_arg4 : FVec F S512 .f32) (main_arg5 : FVec F S512x768 .f32) (main_arg6 : FVec F S512 .f32) (main_arg7 : FVec F S_ .f32) (main_arg8 : FVec F S512 .f32) (main_arg9 : FVec F S512 .f32) (main_v12 : IVec S_ 1) (main_v15 : IVec S512 1) (main_c_5 : IVec S_ 1) : IVec S_ 1 :=
  let main_v16 : IVec S_ 1 := (fun x v => Host.reduce IntOp.andi x v reducesTo_S512_S_d0 h_S_) main_v15 main_c_5
  let main_v17 : IVec S_ 1 := andi main_v12 main_v16
  let main_v18 : FVec F S512 .f32 := Host.absf main_arg4
  let main_cst_6 : FVec F S_ .f32 := constant S_ .f32 0x7F800000#32
  let main_v19 : FVec F S512 .f32 := broadcastInDim S512 ![] bcast_S_S512 main_cst_6
  let main_v20 : IVec S512 1 := cmpf .olt main_v18 main_v19
  let main_c_7 : IVec S_ 1 := constantI S_ 1 1#1
  let main_v21 : IVec S_ 1 := (fun x v => Host.reduce IntOp.andi x v reducesTo_S512_S_d0 h_S_) main_v20 main_c_7
  let main_v22 : IVec S_ 1 := andi main_v17 main_v21
  let main_v23 : FVec F S512x768 .f32 := Host.absf main_arg5
  let main_cst_8 : FVec F S_ .f32 := constant S_ .f32 0x7F800000#32
  let main_v24 : FVec F S512x768 .f32 := broadcastInDim S512x768 ![] bcast_S_S512x768 main_cst_8
  let main_v25 : IVec S512x768 1 := cmpf .olt main_v23 main_v24
  let main_c_9 : IVec S_ 1 := constantI S_ 1 1#1
  let main_v26 : IVec S_ 1 := (fun x v => Host.reduce IntOp.andi x v reducesTo_S512x768_S_d0_1 h_S_) main_v25 main_c_9
  let main_v27 : IVec S_ 1 := andi main_v22 main_v26
  let main_v28 : FVec F S512 .f32 := Host.absf main_arg6
  let main_cst_10 : FVec F S_ .f32 := constant S_ .f32 0x7F800000#32
  let main_v29 : FVec F S512 .f32 := broadcastInDim S512 ![] bcast_S_S512 main_cst_10
  let main_v30 : IVec S512 1 := cmpf .olt main_v28 main_v29
  let main_c_11 : IVec S_ 1 := constantI S_ 1 1#1
  let main_v31 : IVec S_ 1 := (fun x v => Host.reduce IntOp.andi x v reducesTo_S512_S_d0 h_S_) main_v30 main_c_11
  let main_v32 : IVec S_ 1 := andi main_v27 main_v31
  let main_v33 : FVec F S_ .f32 := Host.absf main_arg7
  fn_part2 (F := F) main_arg8 main_arg9 main_v32 main_v33

def fn {F : FTy → Type} [FloatOps F] (main_arg0 : FVec F S4x512x256x64 .f32) (main_arg1 : FVec F S4x256 .f32) (main_arg2 : FVec F S_ .f32) (main_arg3 : FVec F S512 .f32) (main_arg4 : FVec F S512 .f32) (main_arg5 : FVec F S512x768 .f32) (main_arg6 : FVec F S512 .f32) (main_arg7 : FVec F S_ .f32) (main_arg8 : FVec F S512 .f32) (main_arg9 : FVec F S512 .f32) : IVec S_ 1 :=
  let main_v0 : FVec F S4x512x256x64 .f32 := Host.absf main_arg0
  let main_cst : FVec F S_ .f32 := constant S_ .f32 0x7F800000#32
  let main_v1 : FVec F S4x512x256x64 .f32 := broadcastInDim S4x512x256x64 ![] bcast_S_S4x512x256x64 main_cst
  let main_v2 : IVec S4x512x256x64 1 := cmpf .olt main_v0 main_v1
  let main_c : IVec S_ 1 := constantI S_ 1 1#1
  let main_v3 : IVec S_ 1 := (fun x v => Host.reduce IntOp.andi x v reducesTo_S4x512x256x64_S_d0_1_2_3 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S512 .f32 := Host.absf main_arg3
  let main_cst_4 : FVec F S_ .f32 := constant S_ .f32 0x7F800000#32
  let main_v14 : FVec F S512 .f32 := broadcastInDim S512 ![] bcast_S_S512 main_cst_4
  let main_v15 : IVec S512 1 := cmpf .olt main_v13 main_v14
  let main_c_5 : IVec S_ 1 := constantI S_ 1 1#1
  fn_part1 (F := F) main_arg4 main_arg5 main_arg6 main_arg7 main_arg8 main_arg9 main_v12 main_v15 main_c_5
-- ==== Kernel.lean ====
abbrev S4x512x256x64 : Shape := ⟨4, ![4, 512, 256, 64]⟩
abbrev S4x256 : Shape := ⟨2, ![4, 256]⟩
abbrev S_ : Shape := ⟨0, ![]⟩
abbrev S512 : Shape := ⟨1, ![512]⟩
abbrev S512x768 : Shape := ⟨2, ![512, 768]⟩
abbrev S512x512 : Shape := ⟨2, ![512, 512]⟩
abbrev S512x256 : Shape := ⟨2, ![512, 256]⟩
abbrev S256x512 : Shape := ⟨2, ![256, 512]⟩
abbrev S4x512 : Shape := ⟨2, ![4, 512]⟩
abbrev S1x512 : Shape := ⟨2, ![1, 512]⟩
abbrev S4x512x16384 : Shape := ⟨3, ![4, 512, 16384]⟩
abbrev S4x512x1 : Shape := ⟨3, ![4, 512, 1]⟩
abbrev S512x1 : Shape := ⟨2, ![512, 1]⟩
abbrev S1x1 : Shape := ⟨2, ![1, 1]⟩
abbrev S1x512x1024 : Shape := ⟨3, ![1, 512, 1024]⟩
abbrev S1x512x1 : Shape := ⟨3, ![1, 512, 1]⟩
abbrev S512x1024 : Shape := ⟨2, ![512, 1024]⟩
abbrev S1024 : Shape := ⟨1, ![1024]⟩
abbrev S1x1024 : Shape := ⟨2, ![1, 1024]⟩

abbrev nBuf : Space → Nat
  | .hbm => 25
  | .vmem => 10
  | .smem => 0
  | _ => 0

abbrev bufTy : (tb : Table) → Fin (tcTables nBuf tb) → BufTy
  | .hbm, ⟨0, _⟩ => ⟨S4x512x256x64, .f32⟩
  | .hbm, ⟨1, _⟩ => ⟨S4x256, .f32⟩
  | .hbm, ⟨2, _⟩ => ⟨S_, .f32⟩
  | .hbm, ⟨3, _⟩ => ⟨S512, .f32⟩
  | .hbm, ⟨4, _⟩ => ⟨S512, .f32⟩
  | .hbm, ⟨5, _⟩ => ⟨S512x768, .f32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S512, .f32⟩
  | .hbm, ⟨10, _⟩ => ⟨S512x512, .f32⟩
  | .hbm, ⟨11, _⟩ => ⟨S512x256, .f32⟩
  | .hbm, ⟨12, _⟩ => ⟨S256x512, .f32⟩
  | .hbm, ⟨13, _⟩ => ⟨S4x512, .f32⟩
  | .hbm, ⟨14, _⟩ => ⟨S1x512, .f32⟩
  | .hbm, ⟨15, _⟩ => ⟨S4x512, .f32⟩
  | .hbm, ⟨16, _⟩ => ⟨S4x512, .f32⟩
  | .hbm, ⟨17, _⟩ => ⟨S512x512, .bf16⟩
  | .hbm, ⟨18, _⟩ => ⟨S4x512x16384, .f32⟩
  | .hbm, ⟨19, _⟩ => ⟨S4x512x1, .f32⟩
  | .hbm, ⟨20, _⟩ => ⟨S512x1, .f32⟩
  | .hbm, ⟨21, _⟩ => ⟨S512x1, .f32⟩
  | .hbm, ⟨22, _⟩ => ⟨S1x1, .f32⟩
  | .hbm, ⟨23, _⟩ => ⟨S4x512x16384, .f32⟩
  | .hbm, ⟨24, _⟩ => ⟨S4x512x256x64, .f32⟩
  | .local _ .vmem, ⟨0, _⟩ => ⟨S1x512x1024, .f32⟩
  | .local _ .vmem, ⟨1, _⟩ => ⟨S1x512x1024, .f32⟩
  | .local _ .vmem, ⟨2, _⟩ => ⟨S512x512, .bf16⟩
  | .local _ .vmem, ⟨3, _⟩ => ⟨S1x512x1, .f32⟩
  | .local _ .vmem, ⟨4, _⟩ => ⟨S1x512x1, .f32⟩
  | .local _ .vmem, ⟨5, _⟩ => ⟨S512x1, .f32⟩
  | .local _ .vmem, ⟨6, _⟩ => ⟨S512x1, .f32⟩
  | .local _ .vmem, ⟨7, _⟩ => ⟨S1x1, .f32⟩
  | .local _ .vmem, ⟨8, _⟩ => ⟨S1x512x1024, .f32⟩
  | .local _ .vmem, ⟨9, _⟩ => ⟨S1x512x1024, .f32⟩
  | _, _ => ⟨S4x512x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S512x768_S512x512_0_0 : S512x768.Slices ![0, 0] S512x512
  slices_S512x768_S512x256_0_512 : S512x768.Slices ![0, 512] S512x256
  transposes_S512x256_S256x512_1_0 : S512x256.Transposes [1, 0] S256x512
  bcast_S512_S1x512_1 : S512.BroadcastsInDim S1x512 (![1] : Fin 1 → Fin S1x512.rank)
  bcast_S1x512_S4x512_0_1 : S1x512.BroadcastsInDim S4x512 (![0, 1] : Fin 2 → Fin S4x512.rank)
  bitsLt_bf16_f32 : FTy.bits .bf16 < FTy.bits .f32
  shapeCasts_S4x512x256x64_S4x512x16384 : S4x512x256x64.ShapeCasts S4x512x16384
  shapeCasts_S4x512_S4x512x1 : S4x512.ShapeCasts S4x512x1
  shapeCasts_S512_S512x1 : S512.ShapeCasts S512x1
  shapeCasts_S_S1x1 : S_.ShapeCasts S1x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x1024 : S512x1.Broadcasts S512x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S512x1024_S1024 : S512x1024.Reduces [0] S1024
  shapeCasts_S1024_S1x1024 : S1024.ShapeCasts S1x1024
  broadcasts_S1x1024_S512x1024 : S1x1024.Broadcasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x1024_S1x512x1024 : S512x1024.ShapeCasts S1x512x1024
  shapeCasts_S4x512x16384_S4x512x256x64 : S4x512x16384.ShapeCasts S4x512x256x64
  dot_S4x256_S256x512_S4x512_1_0_0_1_n_n_wf : DotDims.WF S4x256 S256x512 S4x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x512x16384.size a
  hwx0_0 : ∀ i : grid0.Coords, EltTy.bits .f32 = 32 ∨ (Rect.block (s := S4x512x16384) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S4x512x1.size a
  hwx0_2 : ∀ i : grid0.Coords, EltTy.bits .f32 = 32 ∨ (Rect.block (s := S4x512x1) S1x512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .f32 = 32 ∨ (Rect.block (s := S512x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .f32 = 32 ∨ (Rect.block (s := S512x1) S512x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S4x512x16384.size a
  hwx0_6 : ∀ i : grid0.Coords, EltTy.bits .f32 = 32 ∨ (Rect.block (s := S4x512x16384) S1x512x1024.size (cc0_transform_6 i) (hinb0_6 i)).WholeWords (EltTy.packing .f32)

variable [Facts₀]

def dot_S4x256_S256x512_S4x512_1_0_0_1_n_n : DotDims S4x256 S256x512 S4x512 where
  lhsContracting := [1]
  rhsContracting := [0]
  lhsNonContracting := [0]
  rhsNonContracting := [1]
  lhsBatch := []
  rhsBatch := []
  wf := dot_S4x256_S256x512_S4x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v8) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x512x256x64 : Shape := ⟨4, ![4, 512, 256, 64]⟩
abbrev S4x256 : Shape := ⟨2, ![4, 256]⟩
abbrev S_ : Shape := ⟨0, ![]⟩
abbrev S512 : Shape := ⟨1, ![512]⟩
abbrev S512x768 : Shape := ⟨2, ![512, 768]⟩
abbrev S4x256x64x512 : Shape := ⟨4, ![4, 256, 64, 512]⟩
abbrev S4x256x64 : Shape := ⟨3, ![4, 256, 64]⟩
abbrev S4x256x64x1 : Shape := ⟨4, ![4, 256, 64, 1]⟩
abbrev S1x1x1x512 : Shape := ⟨4, ![1, 1, 1, 512]⟩
abbrev S4x1x1x256 : Shape := ⟨4, ![4, 1, 1, 256]⟩
abbrev S4x256x64x256 : Shape := ⟨4, ![4, 256, 64, 256]⟩
abbrev S4x256x64x768 : Shape := ⟨4, ![4, 256, 64, 768]⟩

abbrev nBuf : Space → Nat
  | .hbm => 90
  | .vmem => 0
  | .smem => 0
  | _ => 0

abbrev bufTy : (tb : Table) → Fin (tcTables nBuf tb) → BufTy
  | .hbm, ⟨0, _⟩ => ⟨S4x512x256x64, .f32⟩
  | .hbm, ⟨1, _⟩ => ⟨S4x256, .f32⟩
  | .hbm, ⟨2, _⟩ => ⟨S_, .f32⟩
  | .hbm, ⟨3, _⟩ => ⟨S512, .f32⟩
  | .hbm, ⟨4, _⟩ => ⟨S512, .f32⟩
  | .hbm, ⟨5, _⟩ => ⟨S512x768, .f32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S512, .f32⟩
  | .hbm, ⟨10, _⟩ => ⟨S4x256x64x512, .f32⟩
  | .hbm, ⟨11, _⟩ => ⟨S_, .f32⟩
  | .hbm, ⟨12, _⟩ => ⟨S4x256x64x512, .f32⟩
  | .hbm, ⟨13, _⟩ => ⟨S4x256x64x512, .i1⟩
  | .hbm, ⟨14, _⟩ => ⟨S4x256x64x512, .f32⟩
  | .hbm, ⟨15, _⟩ => ⟨S4x256x64x512, .f32⟩
  | .hbm, ⟨16, _⟩ => ⟨S4x256x64x512, .f32⟩
  | .hbm, ⟨17, _⟩ => ⟨S_, .f32⟩
  | .hbm, ⟨18, _⟩ => ⟨S4x256x64, .f32⟩
  | .hbm, ⟨19, _⟩ => ⟨S4x256x64x1, .f32⟩
  | .hbm, ⟨20, _⟩ => ⟨S_, .f32⟩
  | .hbm, ⟨21, _⟩ => ⟨S4x256x64x1, .f32⟩
  | .hbm, ⟨22, _⟩ => ⟨S4x256x64x1, .f32⟩
  | .hbm, ⟨23, _⟩ => ⟨S4x256x64x512, .f32⟩
  | .hbm, ⟨24, _⟩ => ⟨S4x256x64x512, .f32⟩
  | .hbm, ⟨25, _⟩ => ⟨S4x256x64x512, .f32⟩
  | .hbm, ⟨26, _⟩ => ⟨S_, .f32⟩
  | .hbm, ⟨27, _⟩ => ⟨S4x256x64, .f32⟩
  | .hbm, ⟨28, _⟩ => ⟨S4x256x64x1, .f32⟩
  | .hbm, ⟨29, _⟩ => ⟨S_, .f32⟩
  | .hbm, ⟨30, _⟩ => ⟨S4x256x64x1, .f32⟩
  | .hbm, ⟨31, _⟩ => ⟨S4x256x64x1, .f32⟩
  | .hbm, ⟨32, _⟩ => ⟨S4x256x64x512, .f32⟩
  | .hbm, ⟨33, _⟩ => ⟨S4x256x64x512, .f32⟩
  | .hbm, ⟨34, _⟩ => ⟨S_, .f32⟩
  | .hbm, ⟨35, _⟩ => ⟨S4x256x64x1, .f32⟩
  | .hbm, ⟨36, _⟩ => ⟨S4x256x64x1, .f32⟩
  | .hbm, ⟨37, _⟩ => ⟨S4x256x64x1, .f32⟩
  | .hbm, ⟨38, _⟩ => ⟨S4x256x64x512, .f32⟩
  | .hbm, ⟨39, _⟩ => ⟨S4x256x64x512, .f32⟩
  | .hbm, ⟨40, _⟩ => ⟨S1x1x1x512, .f32⟩
  | .hbm, ⟨41, _⟩ => ⟨S4x256x64x512, .f32⟩
  | .hbm, ⟨42, _⟩ => ⟨S4x256x64x512, .f32⟩
  | .hbm, ⟨43, _⟩ => ⟨S1x1x1x512, .f32⟩
  | .hbm, ⟨44, _⟩ => ⟨S4x256x64x512, .f32⟩
  | .hbm, ⟨45, _⟩ => ⟨S4x256x64x512, .f32⟩
  | .hbm, ⟨46, _⟩ => ⟨S4x1x1x256, .f32⟩
  | .hbm, ⟨47, _⟩ => ⟨S4x256x64x256, .f32⟩
  | .hbm, ⟨48, _⟩ => ⟨S4x256x64x768, .f32⟩
  | .hbm, ⟨49, _⟩ => ⟨S4x256x64x512, .f32⟩
  | .hbm, ⟨50, _⟩ => ⟨S1x1x1x512, .f32⟩
  | .hbm, ⟨51, _⟩ => ⟨S4x256x64x512, .f32⟩
  | .hbm, ⟨52, _⟩ => ⟨S4x256x64x512, .f32⟩
  | .hbm, ⟨53, _⟩ => ⟨S_, .f32⟩
  | .hbm, ⟨54, _⟩ => ⟨S4x256x64x512, .f32⟩
  | .hbm, ⟨55, _⟩ => ⟨S4x256x64x512, .i1⟩
  | .hbm, ⟨56, _⟩ => ⟨S4x256x64x512, .f32⟩
  | .hbm, ⟨57, _⟩ => ⟨S4x256x64x512, .f32⟩
  | .hbm, ⟨58, _⟩ => ⟨S4x256x64x512, .f32⟩
  | .hbm, ⟨59, _⟩ => ⟨S_, .f32⟩
  | .hbm, ⟨60, _⟩ => ⟨S4x256x64, .f32⟩
  | .hbm, ⟨61, _⟩ => ⟨S4x256x64x1, .f32⟩
  | .hbm, ⟨62, _⟩ => ⟨S_, .f32⟩
  | .hbm, ⟨63, _⟩ => ⟨S4x256x64x1, .f32⟩
  | .hbm, ⟨64, _⟩ => ⟨S4x256x64x1, .f32⟩
  | .hbm, ⟨65, _⟩ => ⟨S4x256x64x512, .f32⟩
  | .hbm, ⟨66, _⟩ => ⟨S4x256x64x512, .f32⟩
  | .hbm, ⟨67, _⟩ => ⟨S4x256x64x512, .f32⟩
  | .hbm, ⟨68, _⟩ => ⟨S_, .f32⟩
  | .hbm, ⟨69, _⟩ => ⟨S4x256x64, .f32⟩
  | .hbm, ⟨70, _⟩ => ⟨S4x256x64x1, .f32⟩
  | .hbm, ⟨71, _⟩ => ⟨S_, .f32⟩
  | .hbm, ⟨72, _⟩ => ⟨S4x256x64x1, .f32⟩
  | .hbm, ⟨73, _⟩ => ⟨S4x256x64x1, .f32⟩
  | .hbm, ⟨74, _⟩ => ⟨S4x256x64x512, .f32⟩
  | .hbm, ⟨75, _⟩ => ⟨S4x256x64x512, .f32⟩
  | .hbm, ⟨76, _⟩ => ⟨S_, .f32⟩
  | .hbm, ⟨77, _⟩ => ⟨S4x256x64x1, .f32⟩
  | .hbm, ⟨78, _⟩ => ⟨S4x256x64x1, .f32⟩
  | .hbm, ⟨79, _⟩ => ⟨S4x256x64x1, .f32⟩
  | .hbm, ⟨80, _⟩ => ⟨S4x256x64x512, .f32⟩
  | .hbm, ⟨81, _⟩ => ⟨S4x256x64x512, .f32⟩
  | .hbm, ⟨82, _⟩ => ⟨S1x1x1x512, .f32⟩
  | .hbm, ⟨83, _⟩ => ⟨S4x256x64x512, .f32⟩
  | .hbm, ⟨84, _⟩ => ⟨S4x256x64x512, .f32⟩
  | .hbm, ⟨85, _⟩ => ⟨S1x1x1x512, .f32⟩
  | .hbm, ⟨86, _⟩ => ⟨S4x256x64x512, .f32⟩
  | .hbm, ⟨87, _⟩ => ⟨S4x256x64x512, .f32⟩
  | .hbm, ⟨88, _⟩ => ⟨S4x256x64x512, .f32⟩
  | .hbm, ⟨89, _⟩ => ⟨S4x512x256x64, .f32⟩
  | _, _ => ⟨S4x512x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩

abbrev nD : Nat := 1
abbrev τ : Topo := Topo.v7x

variable {F : FTy → Type} [FloatOps F]

class Facts₀ : Prop where
  transposes_S4x512x256x64_S4x256x64x512_0_2_3_1 : S4x512x256x64.Transposes [0, 2, 3, 1] S4x256x64x512
  bcast_S_S4x256x64x512 : S_.BroadcastsInDim S4x256x64x512 (![] : Fin 0 → Fin S4x256x64x512.rank)
  reducesTo_S4x256x64x512_S4x256x64_d3 : S4x256x64x512.ReducesTo [3] S4x256x64
  h_S_ : 0 < S_.numel
  bcast_S4x256x64_S4x256x64x1_0_1_2 : S4x256x64.BroadcastsInDim S4x256x64x1 (![0, 1, 2] : Fin 3 → Fin S4x256x64x1.rank)
  bcast_S_S4x256x64x1 : S_.BroadcastsInDim S4x256x64x1 (![] : Fin 0 → Fin S4x256x64x1.rank)
  bcast_S4x256x64x1_S4x256x64x512_0_1_2_3 : S4x256x64x1.BroadcastsInDim S4x256x64x512 (![0, 1, 2, 3] : Fin 4 → Fin S4x256x64x512.rank)
  bcast_S512_S1x1x1x512_3 : S512.BroadcastsInDim S1x1x1x512 (![3] : Fin 1 → Fin S1x1x1x512.rank)
  bcast_S1x1x1x512_S4x256x64x512_0_1_2_3 : S1x1x1x512.BroadcastsInDim S4x256x64x512 (![0, 1, 2, 3] : Fin 4 → Fin S4x256x64x512.rank)
  bcast_S4x256_S4x1x1x256_0_3 : S4x256.BroadcastsInDim S4x1x1x256 (![0, 3] : Fin 2 → Fin S4x1x1x256.rank)
  bcast_S4x1x1x256_S4x256x64x256_0_1_2_3 : S4x1x1x256.BroadcastsInDim S4x256x64x256 (![0, 1, 2, 3] : Fin 4 → Fin S4x256x64x256.rank)
  concatenates_S4x256x64x512_S4x256x64x256_S4x256x64x768_d3 : Shape.Concatenates [S4x256x64x512, S4x256x64x256] S4x256x64x768 3
  transposes_S4x256x64x512_S4x512x256x64_0_3_1_2 : S4x256x64x512.Transposes [0, 3, 1, 2] S4x512x256x64
  dot_S4x256x64x768_S512x768_S4x256x64x512_3_1_012_0_n_n_wf : DotDims.WF S4x256x64x768 S512x768 S4x256x64x512 [3] [1] [0, 1, 2] [0] [] []

variable [Facts₀]

def dot_S4x256x64x768_S512x768_S4x256x64x512_3_1_012_0_n_n : DotDims S4x256x64x768 S512x768 S4x256x64x512 where
  lhsContracting := [3]
  rhsContracting := [1]
  lhsNonContracting := [0, 1, 2]
  rhsNonContracting := [0]
  lhsBatch := []
  rhsBatch := []
  wf := dot_S4x256x64x768_S512x768_S4x256x64x512_3_1_012_0_n_n_wf

class Facts : Prop extends Facts₀ where

variable [Facts]
-- ==== Proof.ChannelNorm.lean ====
/-
  The mathematics both programs compute, stated once over the extended reals.

  At one position (batch b, time t, feature h) the 512 output channels are obtained from a pre-activation
  vector z : Fin 512 → EReal by a PReLU with scalar slope a (z where z ≥ 0, a · z elsewhere), a layer
  normalization over the 512 channels (mean and variance by division by 512, the reciprocal square root of
  variance + ε, then the affine map lw, lb channel by channel), and a residual addition of the input's
  own channel vector x. The pre-activation is a linear layer over the concatenation of the input's 512
  channels with a 256-long per-batch vector s:
      z o = Σ_{k < 768} cat k · W o k + bias o,   cat = x ++ s.
  Splitting the contraction at 512 gives
      z o = Σ_{c < 512} W o c · x c + (Σ_{a < 256} s a · W o (512 + a) + bias o),
  which needs only that a finite sum over Fin (512 + 256) splits, and commutativity and associativity of
  + and · on the extended reals; no finiteness of the entries is used.
-/
import Idealize.ShloMosaic.PureOps.Ideal.Laws
import Idealize.ShloMosaic.Lib.ValueIdx

noncomputable section

namespace Cert.ChannelNorm

open Idealize.ShloMosaic Idealize.ShloMosaic.ValueIdx

/-- PReLU at one entry: `z` where `z ≥ 0`, `a · z` elsewhere. -/
def prelu (a z : EReal) : EReal :=
  Scalar.select (Ideal.cmp .oge z (Ideal.ofBits .f32 0x00000000#32)) z (a * z)

/-- The mean of 512 entries: their sum divided by 512. -/
def mean (p : Fin 512 → EReal) : EReal :=
  Ideal.div (∑ k : Fin 512, p k) (Ideal.ofBits .f32 0x44000000#32)

/-- The variance of 512 entries about their mean. -/
def var (p : Fin 512 → EReal) : EReal :=
  mean fun k => (p k - mean p) * (p k - mean p)

/-- Channel `o` of the result at one position: the residual `x o` plus the normalized, affinely mapped
    activation. -/
def normed (z x lw lb : Fin 512 → EReal) (a : EReal) (o : Fin 512) : EReal :=
  x o + ((prelu a (z o) - mean (fun k => prelu a (z k)))
          * Ideal.rsqrt (var (fun k => prelu a (z k)) + Ideal.ofBits .f32 0x322BCC77#32) * lw o + lb o)

/-- A sum over 768 indices is the sum over the first 512 plus the sum over the last 256. -/
theorem sum_split {M : Type} [AddCommMonoid M] (f : Fin 768 → M) :
    ∑ k : Fin 768, f k
      = ∑ c : Fin 512, f ⟨c.val, by omega⟩ + ∑ a : Fin 256, f ⟨512 + a.val, by omega⟩ :=
  Fin.sum_univ_add (a := 512) (b := 256) f

/-- The linear layer over the concatenation, split at the join: the contraction of `cat = x ++ s` with a
    768-long weight row plus the bias is the 512-long contraction with `x` plus (the 256-long contraction
    with `s` plus the bias). -/
theorem contraction_split (cat w : Fin 768 → EReal) (x : Fin 512 → EReal) (s : Fin 256 → EReal) (bias : EReal)
    (hx : ∀ c : Fin 512, cat ⟨c.val, by omega⟩ = x c) (hs : ∀ a : Fin 256, cat ⟨512 + a.val, by omega⟩ = s a) :
    (∑ k : Fin 768, cat k * w k) + bias
      = (∑ c : Fin 512, w ⟨c.val, by omega⟩ * x c)
        + ((∑ a : Fin 256, s a * w ⟨512 + a.val, by omega⟩) + bias) := by
  rw [sum_split, add_assoc]
  congr 1
  · exact Finset.sum_congr rfl fun c _ => by rw [hx c, mul_comm]
  · congr 1
    exact Finset.sum_congr rfl fun a _ => by rw [hs a]

/-! ## The result array as one function of the argument arrays -/

/-- The pre-activation at batch `b`, time `t`, feature `h`, channel `o`, in the split form. -/
def preact (X : (⟨4, ![4, 512, 256, 64]⟩ : Shape).Idx → EReal) (S : (⟨2, ![4, 256]⟩ : Shape).Idx → EReal)
    (W : (⟨2, ![512, 768]⟩ : Shape).Idx → EReal) (B : (⟨1, ![512]⟩ : Shape).Idx → EReal)
    (b : Fin 4) (t : Fin 256) (h : Fin 64) (o : Fin 512) : EReal :=
  (∑ c : Fin 512, W (ix2 o (⟨c.val, by omega⟩ : Fin 768)) * X (ix4 b c t h))
    + ((∑ a : Fin 256, S (ix2 b a) * W (ix2 o (⟨512 + a.val, by omega⟩ : Fin 768))) + B (ix1 o))

/-- The result at (b, o, t, h). -/
def outAt (X : (⟨4, ![4, 512, 256, 64]⟩ : Shape).Idx → EReal) (S : (⟨2, ![4, 256]⟩ : Shape).Idx → EReal)
    (A : (⟨0, ![]⟩ : Shape).Idx → EReal) (W : (⟨2, ![512, 768]⟩ : Shape).Idx → EReal)
    (B LW LB : (⟨1, ![512]⟩ : Shape).Idx → EReal)
    (b : Fin 4) (o : Fin 512) (t : Fin 256) (h : Fin 64) : EReal :=
  normed (preact X S W B b t h) (fun c => X (ix4 b c t h)) (fun o' => LW (ix1 o')) (fun o' => LB (ix1 o'))
    (A ix0) o

/-- The whole result array. -/
def out (X : (⟨4, ![4, 512, 256, 64]⟩ : Shape).Idx → EReal) (S : (⟨2, ![4, 256]⟩ : Shape).Idx → EReal)
    (A : (⟨0, ![]⟩ : Shape).Idx → EReal) (W : (⟨2, ![512, 768]⟩ : Shape).Idx → EReal)
    (B LW LB : (⟨1, ![512]⟩ : Shape).Idx → EReal) : (⟨4, ![4, 512, 256, 64]⟩ : Shape).Idx → EReal :=
  fun i => outAt X S A W B LW LB (i 0) (i 1) (i 2) (i 3)

theorem out_apply (X : (⟨4, ![4, 512, 256, 64]⟩ : Shape).Idx → EReal) (S : (⟨2, ![4, 256]⟩ : Shape).Idx → EReal)
    (A : (⟨0, ![]⟩ : Shape).Idx → EReal) (W : (⟨2, ![512, 768]⟩ : Shape).Idx → EReal)
    (B LW LB : (⟨1, ![512]⟩ : Shape).Idx → EReal) (b : Fin 4) (o : Fin 512) (t : Fin 256) (h : Fin 64) :
    out X S A W B LW LB (ix4 b o t h) = outAt X S A W B LW LB b o t h := rfl

end Cert.ChannelNorm

end
-- ==== Proof.LibPlainDot.lean ====
/-
  General lemmas about a contraction of a matrix's columns with another matrix's rows, read at the
  extended reals, and about a sum along the rows of a matrix.

  * A dot whose dimension numbers contract axis 1 of an [M, K] operand with axis 0 of a [K, N] operand, with
    no batch axis, has at the output entry (p, q) the operand entries (p, k) and (k, q) at contraction
    position k, so its value there is the textbook sum over k of l (p, k) · r (k, q). This holds for every
    record with those dimension numbers, whatever its well-formedness proof.
  * The same for a kernel's matrix product into a zero accumulator and for the host's dot_general.
  * A sum of a [R, C] matrix along axis 1 at row p is the sum over k of the entries (p, k).
  * A vector made a column, [a] to [a, 1] (or to [a, 1, 1]), a column made a vector again, and a column repeated along
    the rows, [a, 1] to [a, b], each read at an entry.
-/
import Idealize.ShloMosaic.PureOps.Ideal.Laws
import Idealize.ShloMosaic.Lib.ValueIdx
import Idealize.ShloMosaic.Lib.ValueLayout

noncomputable section

namespace Idealize.ShloMosaic.PlainDot

open Idealize.ShloMosaic Idealize.ShloMosaic.ValueIdx
open scoped BigOperators

variable {M K N : Nat}

/-- The record with the dimension numbers of a plain matrix product, at any well-formedness proof. -/
abbrev mk (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) :=
  ⟨[1], [0], [0], [1], [], [], wf⟩

section
variable (wf : DotDims.WF (⟨2, ![M, K]⟩ : Shape) (⟨2, ![K, N]⟩ : Shape) (⟨2, ![M, N]⟩ : Shape) [1] [0] [0] [1] [] [])

theorem lhs0 (j : (⟨2, ![M, N]⟩ : Shape).Idx) (q : (mk wf).contr.Idx) : ((mk wf).lhsIdx j q 0).val = (j 0).val := by
  unfold DotDims.lhsIdx
  rw [dif_neg (show ¬(0 : Fin (⟨2, ![M, K]⟩ : Shape).rank) ∈ (mk wf).lhsBatch from List.not_mem_nil),
    dif_pos (show (0 : Fin (⟨2, ![M, K]⟩ : Shape).rank) ∈ (mk wf).lhsNonContracting from List.mem_singleton_self _)]
  rfl

theorem lhs1 (j : (⟨2, ![M, N]⟩ : Shape).Idx) (q : (mk wf).contr.Idx) : ((mk wf).lhsIdx j q 1).val = (q ⟨0, Nat.one_pos⟩).val :=
  (mk wf).lhsIdx_val_of_single rfl j q

theorem rhs0 (j : (⟨2, ![M, N]⟩ : Shape).Idx) (q : (mk wf).contr.Idx) : ((mk wf).rhsIdx j q 0).val = (q ⟨0, Nat.one_pos⟩).val :=
  (mk wf).rhsIdx_val_of_single rfl j q

theorem rhs1 (j : (⟨2, ![M, N]⟩ : Shape).Idx) (q : (mk wf).contr.Idx) : ((mk wf).rhsIdx j q 1).val = (j 1).val := by
  unfold DotDims.rhsIdx
  rw [dif_neg (show ¬(1 : Fin (⟨2, ![K, N]⟩ : Shape).rank) ∈ (mk wf).rhsBatch from List.not_mem_nil),
    dif_pos (show (1 : Fin (⟨2, ![K, N]⟩ : Shape).rank) ∈ (mk wf).rhsNonContracting from List.mem_singleton_self _)]
  rfl

/-- The contraction sum of a plain product at the entry (p, q): over k, the left entry (p, k) times the right entry (k, q). -/
theorem sum_mk {α : Type} [AddCommMonoid α] [Mul α] (l : (⟨2, ![M, K]⟩ : Shape).Idx → α) (r : (⟨2, ![K, N]⟩ : Shape).Idx → α)
    (p : Fin M) (q : Fin N) :
    ∑ k : (mk wf).contr.Idx, l ((mk wf).lhsIdx (ix2 p q) k) * r ((mk wf).rhsIdx (ix2 p q) k)
      = ∑ k : Fin K, l (ix2 p k) * r (ix2 k q) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p q) ((contrEquiv1 (mk wf) K rfl rfl).symm k) = ix2 p k := funext fun a => Fin.ext (by
    match a with
    | ⟨0, _⟩ => exact lhs0 wf _ _
    | ⟨1, _⟩ => exact (lhs1 wf _ _).trans hk)
  have er : (mk wf).rhsIdx (ix2 p q) ((contrEquiv1 (mk wf) K rfl rfl).symm k) = ix2 k q := funext fun a => Fin.ext (by
    match a with
    | ⟨0, _⟩ => exact (rhs0 wf _ _).trans hk
    | ⟨1, _⟩ => exact rhs1 wf _ _)
  rw [el, er]
end

/-- Every record whose dimension numbers are the plain product's is `mk` of its own well-formedness proof. -/
theorem sum_of_plain {α : Type} [AddCommMonoid α] [Mul α]
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  simp only at h1 h2 h3 h4 h5 h6
  subst h1 h2 h3 h4 h5 h6
  exact sum_mk wf l r p q

/-- A kernel's matrix product into the zero accumulator, at the entry (p, q). -/
theorem matmul_zero_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal (⟨2, ![M, K]⟩ : Shape) φ₁) (r : FVec Ideal (⟨2, ![K, N]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 k q) : EReal) :=
  (Ideal.matmul_constant_zero_apply D prec l r (ix2 p q)).trans
    (sum_of_plain (α := EReal) D h1 h2 h3 h4 h5 h6 l r p q)

/-- The host's dot_general of the same dimension numbers, at the entry (p, q). -/
theorem dotGeneral_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal (⟨2, ![M, K]⟩ : Shape) φ₁) (r : FVec Ideal (⟨2, ![K, N]⟩ : Shape) φ₂) (p : Fin M) (q : Fin N) :
    FloatOps.dotGeneral D prec sched l r (ix2 p q) = ∑ k : Fin K, (l (ix2 p k) : EReal) * (r (ix2 k q) : EReal) :=
  (Ideal.dotGeneral_apply D prec sched l r (ix2 p q)).trans
    (sum_of_plain (α := EReal) D h1 h2 h3 h4 h5 h6 l r p q)

/-- A kernel's sum of an [R, C] matrix along axis 1, at row p: the sum over k of the entries (p, k). -/
theorem rowSum_apply {R C : Nat} {φ : FTy} (src : FVec Ideal (⟨2, ![R, C]⟩ : Shape) φ) (acc : BitVec φ.bits)
    (h : Shape.Reduces (⟨2, ![R, C]⟩ : Shape) [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, (src (ix2 p k) : EReal) := by
  refine (Ideal.multiReduction_add_single src acc h hφ hacc (ix1 p)).trans ?_
  refine Finset.sum_congr rfl fun k _ => congrArg src ?_
  funext a
  exact Fin.ext (by match a with | ⟨0, _⟩ => rfl | ⟨1, _⟩ => rfl)

/-- An `[a]` vector cast to the column `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the operand at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` cast to the vector `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to `[a, 1, 1]` reads, at `(i, 0, 0)`, the operand at `i`. -/
theorem shapeCast_a_a11_apply {α : Type} {a : ℕ} (x : (⟨1, ![a]⟩ : Shape).Idx → α) (h : (⟨1, ![a]⟩ : Shape).ShapeCasts ⟨3, ![a, 1, 1]⟩)
    (i : Fin a) (u w : Fin 1) : shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    omega)

end Idealize.ShloMosaic.PlainDot

end
-- ==== Proof.KernelPayload.lean ====
/-
  What one grid point of the kernel stores, read at an entry.

  The body loads a [512 channels, 1024 positions] tile of the input (x0), the [512, 512] weight (x1), the
  per-batch bias column (x2), the PReLU slope (x5), the normalization's scale (x3) and shift (x4) columns, and
  stores, at channel o and position l,
      x0[o, l] + ((p[o, l] - mean_o p[·, l]) · rsqrt (var_o p[·, l] + ε) · x3[o] + x4[o]),
  where p = PReLU (z) and z[o, l] = Σ_c x1[o, c] · x0[c, l] + x2[o]: the function `ChannelNorm.normed` of
  column l. The stages below are the body's own operations grouped by what they compute; each is the generated
  payload term by unfolding, and each is read at an entry with one lemma.
-/
import proofs.«169445_j40252433498680_1_alg».proof.Proof.Gen.KernelIdeal.Skeleton
import proofs.«169445_j40252433498680_1_alg».proof.Proof.ChannelNorm
import proofs.«169445_j40252433498680_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## The stages -/

/-- The input tile with its unit batch axis dropped. -/
theorem tile_apply (x0 : Vec Ideal S1x512x1024 .f32) (c : Fin 512) (l : Fin 1024) :
    k0_pay2 (F := Ideal) x0 (ix2 c l) = x0 (ix3 (0 : Fin 1) c l) := by
  unfold k0_pay2
  exact shapeCast_1ab_ab_apply x0 _ c l

/-- The pre-activation: the weight times the tile, plus the bias column repeated along the positions. -/
def zmat (x0 : Vec Ideal S1x512x1024 .f32) (x1 : Vec Ideal S512x512 .bf16) (x2 : Vec Ideal S1x512x1 .f32) :
    FVec Ideal S512x1024 .f32 :=
  addf (matmul dot_S512x512_S512x1024_S512x1024_1_0_0_1_n_n none
          (shapeCast S512x512 x1 shapeCasts_S512x512_S512x512 : FVec Ideal S512x512 .bf16)
          (truncf .bf16 (k0_pay2 x0) bitsLt_bf16_f32 : FVec Ideal S512x1024 .bf16) (constant S512x1024 .f32 0x00000000#32))
    (broadcastTo S512x1024 (shapeCast S512x1 x2 shapeCasts_S1x512x1_S512x1) broadcasts_S512x1_S512x1024)

/-- The PReLU of a matrix with the slope read from a [1, 1] array. -/
def act (z : FVec Ideal S512x1024 .f32) (x5 : Vec Ideal S1x1 .f32) : FVec Ideal S512x1024 .f32 :=
  select (cmpf .oge z (broadcast S512x1024 (Scalar.ofBits .f32 0x00000000#32))) z
    (mulf (broadcast S512x1024 (extractAt ![0, 0] x5 inpos_S1x1_p0_0)) z)

/-- The mean over the 512 channels, one per position, kept as a [1, 1024] row. -/
def colMean (p : FVec Ideal S512x1024 .f32) : FVec Ideal S1x1024 .f32 :=
  divf (shapeCast S1x1024 (multiReduction .add [0] S1024 p 0x00000000#32 reduces_S512x1024_S1024 (.inl rfl) rfl)
          shapeCasts_S1024_S1x1024)
    (broadcast S1x1024 (Scalar.ofBits .f32 0x44000000#32))

/-- The matrix less its column means. -/
def centered (p : FVec Ideal S512x1024 .f32) : FVec Ideal S512x1024 .f32 :=
  subf p (broadcastTo S512x1024 (colMean p) broadcasts_S1x1024_S512x1024)

/-- The centered matrix times the reciprocal square root of (variance + ε), times the scale column. -/
def scaled (p : FVec Ideal S512x1024 .f32) (x3 : Vec Ideal S512x1 .f32) : FVec Ideal S512x1024 .f32 :=
  mulf (mulf (centered p)
          (broadcastTo S512x1024
            (rsqrt (addf (colMean (mulf (centered p) (centered p))) (broadcast S1x1024 (Scalar.ofBits .f32 0x322BCC77#32))))
            broadcasts_S1x1024_S512x1024))
    (broadcastTo S512x1024 (shapeCast S512x1 x3 shapeCasts_S512x1_S512x1) broadcasts_S512x1_S512x1024)

/-- The body's normalized activation is these stages composed. -/
theorem pay3_eq (x0 : Vec Ideal S1x512x1024 .f32) (x1 : Vec Ideal S512x512 .bf16) (x2 : Vec Ideal S1x512x1 .f32)
    (x5 : Vec Ideal S1x1 .f32) (x3 : Vec Ideal S512x1 .f32) :
    k0_pay3 (F := Ideal) x0 x1 x2 x5 x3 = scaled (act (zmat x0 x1 x2) x5) x3 := rfl

/-! ## Each stage at an entry -/

theorem zmat_apply (x0 : Vec Ideal S1x512x1024 .f32) (x1 : Vec Ideal S512x512 .bf16) (x2 : Vec Ideal S1x512x1 .f32)
    (o : Fin 512) (l : Fin 1024) :
    zmat x0 x1 x2 (ix2 o l)
      = (∑ c : Fin 512, (x1 (ix2 o c) : EReal) * (x0 (ix3 (0 : Fin 1) c l) : EReal))
        + (x2 (ix3 (0 : Fin 1) o (0 : Fin 1)) : EReal) := by
  unfold zmat
  rw [addf_apply]
  congr 1
  · refine (PlainDot.matmul_zero_apply dot_S512x512_S512x1024_S512x1024_1_0_0_1_n_n rfl rfl rfl rfl rfl rfl none _ _ o l).trans ?_
    refine Finset.sum_congr rfl fun c _ => ?_
    rw [shapeCast_self, truncf_apply, tile_apply]
  · rw [PlainDot.broadcastTo_a1_ab_apply, shapeCast_1ab_ab_apply]

theorem act_apply (z : FVec Ideal S512x1024 .f32) (x5 : Vec Ideal S1x1 .f32) (o : Fin 512) (l : Fin 1024) :
    act z x5 (ix2 o l) = ChannelNorm.prelu (x5 (ix2 (0 : Fin 1) (0 : Fin 1))) (z (ix2 o l)) := by
  have e : extractAt ![0, 0] x5 inpos_S1x1_p0_0 = x5 (ix2 (0 : Fin 1) (0 : Fin 1)) :=
    congrArg x5 (funext fun a => Fin.ext (by match a with | ⟨0, _⟩ => rfl | ⟨1, _⟩ => rfl))
  unfold act ChannelNorm.prelu
  rw [select_apply, cmpf_apply, mulf_apply, broadcast_apply, broadcast_apply, e]
  rfl

/-- The sum over the 512 channels at position l. -/
theorem colSum_apply (src : FVec Ideal S512x1024 .f32) (l : Fin 1024) :
    multiReduction .add [0] S1024 src 0x00000000#32 reduces_S512x1024_S1024 (.inl rfl) rfl (ix1 l)
      = ∑ k : Fin 512, (src (ix2 k l) : EReal) := by
  refine (Ideal.multiReduction_add_single src _ reduces_S512x1024_S1024 (.inl rfl) rfl (ix1 l)).trans ?_
  refine Finset.sum_congr rfl fun k _ => congrArg src ?_
  funext a
  exact Fin.ext (by match a with | ⟨0, _⟩ => rfl | ⟨1, _⟩ => rfl)

theorem colMean_apply (p : FVec Ideal S512x1024 .f32) (u : Fin 1) (l : Fin 1024) :
    colMean p (ix2 u l) = ChannelNorm.mean (fun k => p (ix2 k l)) := by
  unfold colMean ChannelNorm.mean
  rw [divf_apply, shapeCast_a_1a_apply, colSum_apply, broadcast_apply]
  rfl

theorem centered_apply (p : FVec Ideal S512x1024 .f32) (o : Fin 512) (l : Fin 1024) :
    centered p (ix2 o l) = p (ix2 o l) - ChannelNorm.mean (fun k => p (ix2 k l)) := by
  unfold centered
  rw [subf_apply, broadcastTo_1b_ab_apply, colMean_apply]

theorem scaled_apply (p : FVec Ideal S512x1024 .f32) (x3 : Vec Ideal S512x1 .f32) (o : Fin 512) (l : Fin 1024) :
    scaled p x3 (ix2 o l)
      = (p (ix2 o l) - ChannelNorm.mean (fun k => p (ix2 k l)))
          * Ideal.rsqrt (ChannelNorm.var (fun k => p (ix2 k l)) + Ideal.ofBits .f32 0x322BCC77#32)
          * (x3 (ix2 o (0 : Fin 1)) : EReal) := by
  have hv : colMean (mulf (centered p) (centered p)) (ix2 (0 : Fin 1) l) = ChannelNorm.var (fun k => p (ix2 k l)) := by
    rw [colMean_apply]
    unfold ChannelNorm.var
    congr 1
    funext k
    rw [mulf_apply, centered_apply]
  unfold scaled
  rw [mulf_apply, mulf_apply, centered_apply, broadcastTo_1b_ab_apply, PlainDot.broadcastTo_a1_ab_apply, shapeCast_self]
  show _ * Ideal.rsqrt (colMean (mulf (centered p) (centered p)) (ix2 (0 : Fin 1) l) + Ideal.ofBits .f32 0x322BCC77#32) * _ = _
  rw [hv]

/-! ## The stored value at an entry -/

/-- Entry (0, o, l) of what a grid point stores is `ChannelNorm.normed` of column l. -/
theorem stored_apply (x0 : Vec Ideal S1x512x1024 .f32) (x1 : Vec Ideal S512x512 .bf16) (x2 : Vec Ideal S1x512x1 .f32)
    (x5 : Vec Ideal S1x1 .f32) (x3 x4 : Vec Ideal S512x1 .f32) (u : Fin 1) (o : Fin 512) (l : Fin 1024) :
    k0_pay1 (F := Ideal) (k0_pay2 x0) (k0_pay3 x0 x1 x2 x5 x3) x4 (ix3 u o l)
      = ChannelNorm.normed
          (fun o' => (∑ c : Fin 512, (x1 (ix2 o' c) : EReal) * (x0 (ix3 (0 : Fin 1) c l) : EReal))
                      + (x2 (ix3 (0 : Fin 1) o' (0 : Fin 1)) : EReal))
          (fun c => x0 (ix3 (0 : Fin 1) c l)) (fun o' => x3 (ix2 o' (0 : Fin 1))) (fun o' => x4 (ix2 o' (0 : Fin 1)))
          (x5 (ix2 (0 : Fin 1) (0 : Fin 1))) o := by
  show shapeCast S1x512x1024 (addf (k0_pay2 x0) (addf (k0_pay3 x0 x1 x2 x5 x3)
      (broadcastTo S512x1024 (shapeCast S512x1 x4 shapeCasts_S512x1_S512x1) broadcasts_S512x1_S512x1024)))
      shapeCasts_S512x1024_S1x512x1024 (ix3 u o l) = _
  rw [shapeCast_ab_1ab_apply, addf_apply, addf_apply, tile_apply, pay3_eq, scaled_apply,
    PlainDot.broadcastTo_a1_ab_apply, shapeCast_self]
  unfold ChannelNorm.normed
  simp only [act_apply, zmat_apply]

end Cert.KernelIdeal.Payload

end
-- ==== Proof.KernelBlocks.lean ====
/-
  From the grid points' blocks to the whole output array of the kernel region.

  The grid is 4 batches × 16 tiles of 1024 positions. At point (b, s) the body sees the input tile
  [b, all 512 channels, positions 1024·s … 1024·s + 1023], the whole weight, batch b's bias column, the whole
  scale and shift columns and the slope, and writes the output tile at the same place as the input tile. So
  every entry (b, o, j) of the output array is written by exactly the point (b, j / 1024), and holds
  `ChannelNorm.normed` of column (b, j) of the region's input arrays: `regionOut`.
-/
import proofs.«169445_j40252433498680_1_alg».proof.Proof.Gen.KernelIdeal.Frame
import proofs.«169445_j40252433498680_1_alg».proof.Proof.KernelPayload
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ)

/-! ## The output array as one function of the region's input arrays -/

/-- Entry (b, o, j) of the region's output from its six input arrays. -/
def regionOutAt (X : S4x512x16384.Idx → EReal) (Wb : S512x512.Idx → EReal) (SW : S4x512x1.Idx → EReal)
    (LW LB : S512x1.Idx → EReal) (A : S1x1.Idx → EReal) (b : Fin 4) (o : Fin 512) (j : Fin 16384) : EReal :=
  ChannelNorm.normed
    (fun o' => (∑ c : Fin 512, Wb (ix2 o' c) * X (ix3 b c j)) + SW (ix3 b o' (0 : Fin 1)))
    (fun c => X (ix3 b c j)) (fun o' => LW (ix2 o' (0 : Fin 1))) (fun o' => LB (ix2 o' (0 : Fin 1)))
    (A (ix2 (0 : Fin 1) (0 : Fin 1))) o

/-- The region's whole output array. -/
def regionOut (X : S4x512x16384.Idx → EReal) (Wb : S512x512.Idx → EReal) (SW : S4x512x1.Idx → EReal)
    (LW LB : S512x1.Idx → EReal) (A : S1x1.Idx → EReal) : S4x512x16384.Idx → EReal :=
  fun i => regionOutAt X Wb SW LW LB A (i 0) (i 1) (i 2)

/-! ## The index maps over the grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- Each input window's block index in terms of the output window's, and the output's ranges. -/
theorem idx_facts : ∀ t : Fin cfg0.N,
    win0_0.index t (0 : Fin 3) = win0_6.index t (0 : Fin 3) ∧ win0_0.index t (1 : Fin 3) = 0
    ∧ win0_0.index t (2 : Fin 3) = win0_6.index t (2 : Fin 3)
    ∧ win0_1.index t (0 : Fin 2) = 0 ∧ win0_1.index t (1 : Fin 2) = 0
    ∧ win0_2.index t (0 : Fin 3) = win0_6.index t (0 : Fin 3) ∧ win0_2.index t (1 : Fin 3) = 0
    ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) ≤ 3 ∧ win0_6.index t (1 : Fin 3) = 0 ∧ win0_6.index t (2 : Fin 3) ≤ 15 :=
  (by decide +kernel : ∀ t : Fin grid0.N, _)

/-- Every (batch, tile) pair is some point's output block. -/
theorem idx_onto : ∀ (q0 : Fin 4) (q2 : Fin 16), ∃ t : Fin cfg0.N, win0_6.index t = ![q0.val, 0, q2.val] :=
  (by decide +kernel : ∀ (q0 : Fin 4) (q2 : Fin 16), ∃ t : Fin grid0.N, win0_6.index t = ![q0.val, 0, q2.val])

/-- The batch of point `t`. -/
def bOf (t : Fin cfg0.N) : Fin 4 := ⟨win0_6.index t (0 : Fin 3), by have := (idx_facts t).2.2.2.2.2.2.2.2.2.2.2.2.2.2.1; omega⟩

/-- Position `l` of point `t`'s tile, as a position of the merged axis. -/
def posOf (t : Fin cfg0.N) (l : Fin 1024) : Fin 16384 :=
  ⟨win0_6.index t (2 : Fin 3) * 1024 + l.val, by have := (idx_facts t).2.2.2.2.2.2.2.2.2.2.2.2.2.2.2.2; omega⟩

/-! ## Each input block read where the output block sits -/

theorem blkX_apply (c : Dev nD) (t : Fin cfg0.N) (ch : Fin 512) (l : Fin 1024) :
    (iblk m c 0 t : S1x512x1024.Idx → EReal) (ix3 (0 : Fin 1) ch l)
      = (V m c main_v8 : S4x512x16384.Idx → EReal) (ix3 (bOf t) ch (posOf t l)) := by
  show V m c main_v8 (((cfg0.win 0).blk t).view.emb (ix3 (0 : Fin 1) ch l)) = _
  refine congrArg (V m c main_v8) (funext fun a => Fin.ext ?_)
  obtain ⟨e0, e1, e2, -⟩ := idx_facts t
  match a with
  | ⟨0, _⟩ => show win0_0.index t (0 : Fin 3) * 1 + 1 * 0 = win0_6.index t (0 : Fin 3); omega
  | ⟨1, _⟩ => show win0_0.index t (1 : Fin 3) * 512 + 1 * ch.val = ch.val; omega
  | ⟨2, _⟩ => show win0_0.index t (2 : Fin 3) * 1024 + 1 * l.val = win0_6.index t (2 : Fin 3) * 1024 + l.val; omega

theorem blkW_apply (c : Dev nD) (t : Fin cfg0.N) (o k : Fin 512) :
    (iblk m c 1 t : S512x512.Idx → EReal) (ix2 o k) = (V m c main_v7 : S512x512.Idx → EReal) (ix2 o k) := by
  show V m c main_v7 (((cfg0.win 1).blk t).view.emb (ix2 o k)) = _
  refine congrArg (V m c main_v7) (funext fun a => Fin.ext ?_)
  obtain ⟨-, -, -, e3, e4, -⟩ := idx_facts t
  match a with
  | ⟨0, _⟩ => show win0_1.index t (0 : Fin 2) * 512 + 1 * o.val = o.val; omega
  | ⟨1, _⟩ => show win0_1.index t (1 : Fin 2) * 512 + 1 * k.val = k.val; omega

theorem blkSW_apply (c : Dev nD) (t : Fin cfg0.N) (o : Fin 512) :
    (iblk m c 2 t : S1x512x1.Idx → EReal) (ix3 (0 : Fin 1) o (0 : Fin 1))
      = (V m c main_v9 : S4x512x1.Idx → EReal) (ix3 (bOf t) o (0 : Fin 1)) := by
  show V m c main_v9 (((cfg0.win 2).blk t).view.emb (ix3 (0 : Fin 1) o (0 : Fin 1))) = _
  refine congrArg (V m c main_v9) (funext fun a => Fin.ext ?_)
  obtain ⟨-, -, -, -, -, e5, e6, e7, -⟩ := idx_facts t
  match a with
  | ⟨0, _⟩ => show win0_2.index t (0 : Fin 3) * 1 + 1 * 0 = win0_6.index t (0 : Fin 3); omega
  | ⟨1, _⟩ => show win0_2.index t (1 : Fin 3) * 512 + 1 * o.val = o.val; omega
  | ⟨2, _⟩ => show win0_2.index t (2 : Fin 3) * 1 + 1 * 0 = 0; omega

theorem blkLW_apply (c : Dev nD) (t : Fin cfg0.N) (o : Fin 512) :
    (iblk m c 3 t : S512x1.Idx → EReal) (ix2 o (0 : Fin 1)) = (V m c main_v10 : S512x1.Idx → EReal) (ix2 o (0 : Fin 1)) := by
  show V m c main_v10 (((cfg0.win 3).blk t).view.emb (ix2 o (0 : Fin 1))) = _
  refine congrArg (V m c main_v10) (funext fun a => Fin.ext ?_)
  obtain ⟨-, -, -, -, -, -, -, -, e8, e9, -⟩ := idx_facts t
  match a with
  | ⟨0, _⟩ => show win0_3.index t (0 : Fin 2) * 512 + 1 * o.val = o.val; omega
  | ⟨1, _⟩ => show win0_3.index t (1 : Fin 2) * 1 + 1 * 0 = 0; omega

theorem blkLB_apply (c : Dev nD) (t : Fin cfg0.N) (o : Fin 512) :
    (iblk m c 4 t : S512x1.Idx → EReal) (ix2 o (0 : Fin 1)) = (V m c main_v11 : S512x1.Idx → EReal) (ix2 o (0 : Fin 1)) := by
  show V m c main_v11 (((cfg0.win 4).blk t).view.emb (ix2 o (0 : Fin 1))) = _
  refine congrArg (V m c main_v11) (funext fun a => Fin.ext ?_)
  obtain ⟨-, -, -, -, -, -, -, -, -, -, e10, e11, -⟩ := idx_facts t
  match a with
  | ⟨0, _⟩ => show win0_4.index t (0 : Fin 2) * 512 + 1 * o.val = o.val; omega
  | ⟨1, _⟩ => show win0_4.index t (1 : Fin 2) * 1 + 1 * 0 = 0; omega

theorem blkA_apply (c : Dev nD) (t : Fin cfg0.N) :
    (iblk m c 5 t : S1x1.Idx → EReal) (ix2 (0 : Fin 1) (0 : Fin 1))
      = (V m c main_v12 : S1x1.Idx → EReal) (ix2 (0 : Fin 1) (0 : Fin 1)) := by
  show V m c main_v12 (((cfg0.win 5).blk t).view.emb (ix2 (0 : Fin 1) (0 : Fin 1))) = _
  refine congrArg (V m c main_v12) (funext fun a => Fin.ext ?_)
  obtain ⟨-, -, -, -, -, -, -, -, -, -, -, -, e12, e13, -⟩ := idx_facts t
  match a with
  | ⟨0, _⟩ => show win0_5.index t (0 : Fin 2) * 1 + 1 * 0 = 0; omega
  | ⟨1, _⟩ => show win0_5.index t (1 : Fin 2) * 1 + 1 * 0 = 0; omega

/-! ## What a point writes back -/

/-- Where entry (u, o, l) of point `t`'s output block lies in the output array. -/
theorem emb_out (t : Fin cfg0.N) (u : Fin 1) (o : Fin 512) (l : Fin 1024) :
    (((cfg0.win 6).blk t).view.emb (ix3 u o l) : S4x512x16384.Idx) = ix3 (bOf t) o (posOf t l) := by
  refine funext fun a => Fin.ext ?_
  obtain ⟨-, -, -, -, -, -, -, -, -, -, -, -, -, -, -, e15, -⟩ := idx_facts t
  have hu : u.val = 0 := by omega
  match a with
  | ⟨0, _⟩ => show win0_6.index t (0 : Fin 3) * 1 + 1 * u.val = win0_6.index t (0 : Fin 3); omega
  | ⟨1, _⟩ => show win0_6.index t (1 : Fin 3) * 512 + 1 * o.val = o.val; omega
  | ⟨2, _⟩ => show win0_6.index t (2 : Fin 3) * 1024 + 1 * l.val = win0_6.index t (2 : Fin 3) * 1024 + l.val; omega

/-- WHAT POINT `t` WRITES BACK is block `t` of `regionOut` of the arrays as the region finds them. -/
theorem flushed_eq (c : Dev nD) (t : Fin cfg0.N) :
    (dats m 0 c).flushed 6 t
      = ((cfg0.win 6).blk t).view.read (Elt Ideal)
          (regionOut (V m c main_v8) (V m c main_v7) (V m c main_v9) (V m c main_v10) (V m c main_v11) (V m c main_v12)) := by
  show (cfg0.win 6).cut (grid0.coords t) ((dats m 0 c).after 6 t) = _
  rw [after0_6]
  unfold out0_6
  rw [View.canon_unit_zero hz3]
  simp only [View.ld_unit_zero (S := S1x512x1024) hz3, View.ld_unit_zero (S := S512x512) hz2,
    View.ld_unit_zero (S := S1x512x1) hz3, View.ld_unit_zero (S := S1x1) hz2, View.ld_unit_zero (S := S512x1) hz2]
  refine funext fun (j : S1x512x1024.Idx) => ?_
  obtain ⟨u, o, l, rfl⟩ : ∃ (u : Fin 1) (o : Fin 512) (l : Fin 1024), j = ix3 u o l := ⟨j 0, j 1, j 2, eq_ix3 j⟩
  refine (Payload.stored_apply (iblk m c 0 t) (iblk m c 1 t) (iblk m c 2 t) (iblk m c 5 t) (iblk m c 3 t) (iblk m c 4 t) u o l).trans ?_
  show _ = regionOut (V m c main_v8) (V m c main_v7) (V m c main_v9) (V m c main_v10) (V m c main_v11) (V m c main_v12)
      (((cfg0.win 6).blk t).view.emb (ix3 u o l))
  rw [emb_out]
  show _ = regionOutAt (V m c main_v8) (V m c main_v7) (V m c main_v9) (V m c main_v10) (V m c main_v11) (V m c main_v12)
      (bOf t) o (posOf t l)
  unfold regionOutAt
  simp only [blkX_apply, blkW_apply, blkSW_apply, blkLW_apply, blkLB_apply, blkA_apply]

/-! ## The blocks cover the array -/

/-- An index of the array is in point `t`'s block iff each coordinate is in the block's range on its axis. -/
theorem mem_blk (t : Fin cfg0.N) (i : S4x512x16384.Idx) :
    i ∈ ((cfg0.win 6).blk t).view.set
      ↔ ∀ a : Fin 3, win0_6.index t a * S1x512x1024.size a ≤ (i a).val
          ∧ (i a).val < win0_6.index t a * S1x512x1024.size a + S1x512x1024.size a := by
  show i ∈ ((View.whole main_v13).slice (win0_6.rect t)).set ↔ _
  rw [View.set_slice_whole, Rect.mem_set_unit]
  exact Iff.rfl

/-- Entry (b, o, j) is in the block of the point whose output block index is (b, 0, j / 1024). -/
theorem cover (i : S4x512x16384.Idx) :
    ∃ t : Fin cfg0.N, (cfg0.win 6).flush t = true ∧ i ∈ ((cfg0.win 6).blk t).view.set := by
  have hi0 : (i 0).val < 4 := (i 0).isLt
  have hi1 : (i 1).val < 512 := (i 1).isLt
  have hi2 : (i 2).val < 16384 := (i 2).isLt
  obtain ⟨t, ht⟩ := idx_onto ⟨(i 0).val, hi0⟩ ⟨(i 2).val / 1024, by omega⟩
  have q0 : win0_6.index t (0 : Fin 3) = (i 0).val := congrFun ht 0
  have q1 : win0_6.index t (1 : Fin 3) = 0 := congrFun ht 1
  have q2 : win0_6.index t (2 : Fin 3) = (i 2).val / 1024 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 1024 ≤ (i 2).val ∧ (i 2).val < win0_6.index t (2 : Fin 3) * 1024 + 1024; omega

/-- THE OUTPUT ARRAY after the region is `regionOut` of the arrays as the region finds them. -/
theorem final (c : Dev nD) :
    (dats m 0 c).arrAt 6 cfg0.N
      = regionOut (V m c main_v8) (V m c main_v7) (V m c main_v9) (V m c main_v10) (V m c main_v11) (V m c main_v12) :=
  (dats m 0 c).arrAt_eq_of_cover 6 _ (fun t _ => flushed_eq m c t) cover

end Cert.KernelIdeal.Blocks

end
-- ==== Proof.KernelHost.lean ====
/-
  What the kernel region finds in its six input arrays, read at an index: each is written by the host
  operations before the region from the argument arrays (slices and a transpose of the weight, a small
  matrix product with the per-batch vector plus the bias, reshapes).
-/
import proofs.«169445_j40252433498680_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import proofs.«169445_j40252433498680_1_alg».proof.Proof.LibPlainDot

noncomputable section

namespace Cert.KernelIdeal.HostValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The argument arrays and the region's input arrays, each named at its literal type -/

/-- The input, [4, 512, 256, 64]. -/
abbrev argX (c : Dev nD) : S4x512x256x64.Idx → EReal := m ((c.tc : Thread nD τ).loc main_arg0)
/-- The per-batch vector, [4, 256]. -/
abbrev argS (c : Dev nD) : S4x256.Idx → EReal := m ((c.tc : Thread nD τ).loc main_arg1)
/-- The PReLU slope, a scalar. -/
abbrev argA (c : Dev nD) : S_.Idx → EReal := m ((c.tc : Thread nD τ).loc main_arg7)
/-- The linear layer's weight, [512, 768]. -/
abbrev argW (c : Dev nD) : S512x768.Idx → EReal := m ((c.tc : Thread nD τ).loc main_arg5)
/-- The linear layer's bias, [512]. -/
abbrev argB (c : Dev nD) : S512.Idx → EReal := m ((c.tc : Thread nD τ).loc main_arg6)
/-- The normalization's scale, [512]. -/
abbrev argLW (c : Dev nD) : S512.Idx → EReal := m ((c.tc : Thread nD τ).loc main_arg8)
/-- The normalization's shift, [512]. -/
abbrev argLB (c : Dev nD) : S512.Idx → EReal := m ((c.tc : Thread nD τ).loc main_arg9)

/-- The region's input with time and feature merged, [4, 512, 16384]. -/
abbrev inX (c : Dev nD) : S4x512x16384.Idx → EReal := V m c main_v8
/-- The weight's first 512 columns, [512, 512]. -/
abbrev inW (c : Dev nD) : S512x512.Idx → EReal := V m c main_v7
/-- The per-batch bias column, [4, 512, 1]. -/
abbrev inSW (c : Dev nD) : S4x512x1.Idx → EReal := V m c main_v9
/-- The scale as a column, [512, 1]. -/
abbrev inLW (c : Dev nD) : S512x1.Idx → EReal := V m c main_v10
/-- The shift as a column, [512, 1]. -/
abbrev inLB (c : Dev nD) : S512x1.Idx → EReal := V m c main_v11
/-- The slope as a [1, 1] array. -/
abbrev inA (c : Dev nD) : S1x1.Idx → EReal := V m c main_v12

/-! ## Each input array named as a term of the argument arrays -/

/-- The merged input is the argument, reshaped. -/
theorem inX_eq (c : Dev nD) :
    inX m c = shapeCast S4x512x16384 (argX m c) shapeCasts_S4x512x256x64_S4x512x16384 := by
  show StableHlo.after hostOps0 (fun b => m (c, b)) (Proc.devRef .tc main_v8) = _
  after_results
  rfl

/-- The weight's first 512 columns, in the narrower float format. -/
theorem inW_eq (c : Dev nD) :
    inW m c = (truncf .bf16 (extractStridedSlice S512x512 ![0, 0] (argW m c) slices_S512x768_S512x512_0_0 :
      FVec Ideal S512x512 .f32) bitsLt_bf16_f32 : FVec Ideal S512x512 .bf16) := by
  show StableHlo.after hostOps0 (fun b => m (c, b)) (Proc.devRef .tc main_v7) = _
  after_results

/-- The per-batch bias column: the product of the per-batch vector with the transposed last 256 columns of the
    weight, plus the bias repeated over the batch, as a column. -/
theorem inSW_eq (c : Dev nD) :
    inSW m c = shapeCast S4x512x1
      (addf
        (Host.dotGeneral (F := Ideal) (φ₁ := .f32) (φ₂ := .f32) dot_S4x256_S256x512_S4x512_1_0_0_1_n_n none (argS m c)
          (transpose S256x512 [1, 0]
            (extractStridedSlice S512x256 ![0, 512] (argW m c) slices_S512x768_S512x256_0_512 : FVec Ideal S512x256 .f32)
            transposes_S512x256_S256x512_1_0 : FVec Ideal S256x512 .f32) : FVec Ideal S4x512 .f32)
        (broadcastInDim S4x512 ![0, 1] bcast_S1x512_S4x512_0_1
          (broadcastInDim S1x512 ![1] bcast_S512_S1x512_1 (argB m c)) : FVec Ideal S4x512 .f32))
      shapeCasts_S4x512_S4x512x1 := by
  show StableHlo.after hostOps0 (fun b => m (c, b)) (Proc.devRef .tc main_v9) = _
  after_results
  rfl

/-- The scale as a column is the scale, reshaped. -/
theorem inLW_eq (c : Dev nD) : inLW m c = shapeCast S512x1 (argLW m c) shapeCasts_S512_S512x1 := by
  show StableHlo.after hostOps0 (fun b => m (c, b)) (Proc.devRef .tc main_v10) = _
  after_results
  rfl

/-- The shift as a column is the shift, reshaped. -/
theorem inLB_eq (c : Dev nD) : inLB m c = shapeCast S512x1 (argLB m c) shapeCasts_S512_S512x1 := by
  show StableHlo.after hostOps0 (fun b => m (c, b)) (Proc.devRef .tc main_v11) = _
  after_results
  rfl

/-- The slope as a [1, 1] array is the slope, reshaped. -/
theorem inA_eq (c : Dev nD) : inA m c = shapeCast S1x1 (argA m c) shapeCasts_S_S1x1 := by
  show StableHlo.after hostOps0 (fun b => m (c, b)) (Proc.devRef .tc main_v12) = _
  after_results
  rfl

/-! ## The layout operations of these terms, read at an index (over variables of the literal types) -/

/-- Merging the last two axes [256, 64] into one of 16384: position j is (j / 64, j % 64). -/
theorem merge_apply {α : Type} (x : S4x512x256x64.Idx → α) (h : S4x512x256x64.ShapeCasts S4x512x16384)
    (b : Fin 4) (ch : Fin 512) (j : Fin 16384) :
    shapeCast S4x512x16384 x h (ix3 b ch j)
      = x (ix4 b ch (⟨j.val / 64, by omega⟩ : Fin 256) (⟨j.val % 64, by omega⟩ : Fin 64)) :=
  shapeCast_apply x h _ _ (by
    rw [Shape.rowMajor_val_four, Shape.rowMajor_val_three]
    show ((b.val * 512 + ch.val) * 256 + j.val / 64) * 64 + j.val % 64 = (b.val * 512 + ch.val) * 16384 + j.val
    omega)

/-- A [4, 512] matrix with a trailing unit axis added reads, at (b, o, 0), the matrix at (b, o). -/
theorem addUnit_apply {α : Type} (x : S4x512.Idx → α) (h : S4x512.ShapeCasts S4x512x1) (b : Fin 4) (o : Fin 512) (u : Fin 1) :
    shapeCast S4x512x1 x h (ix3 b o u) = x (ix2 b o) :=
  shapeCast_apply x h _ _ (by
    have hu : u.val = 0 := by omega
    rw [Shape.rowMajor_val_two, Shape.rowMajor_val_three]
    show b.val * 512 + o.val = (b.val * 512 + o.val) * 1 + u.val
    omega)

/-- A scalar reshaped to [1, 1]. -/
theorem scalar_apply {α : Type} (x : S_.Idx → α) (h : S_.ShapeCasts S1x1) (j : S1x1.Idx) :
    shapeCast S1x1 x h j = x ix0 :=
  shapeCast_apply x h _ _ (by
    have h0 := idx2_lt0 j
    have h1 := idx2_lt1 j
    rw [Shape.rowMajor_val_two]
    show (S_.rowMajor ix0).val = (j 0).val * 1 + (j 1).val
    have := (S_.rowMajor ix0).isLt
    have hn : S_.numel = 1 := rfl
    omega)

/-- The bias repeated over the batch: [512] to [1, 512] to [4, 512], at (b, o), is the bias at o. -/
theorem bias_apply {α : Type} (x : S512.Idx → α) (h₁ : S512.BroadcastsInDim S1x512 (![1] : Fin 1 → Fin S1x512.rank))
    (h₂ : S1x512.BroadcastsInDim S4x512 (![0, 1] : Fin 2 → Fin S4x512.rank)) (b : Fin 4) (o : Fin 512) :
    broadcastInDim S4x512 ![0, 1] h₂ (broadcastInDim S1x512 ![1] h₁ x) (ix2 b o) = x (ix1 o) := by
  refine (broadcastInDim_apply _ h₂ _ (ix2 b o) (ix2 (0 : Fin 1) o) fun a => ?_).trans
    (broadcastInDim_apply _ h₁ x (ix2 (0 : Fin 1) o) (ix1 o) fun a => ?_)
  · match a with
    | ⟨0, _⟩ => rfl
    | ⟨1, _⟩ => rfl
  · match a with
    | ⟨0, _⟩ => rfl

/-! ## Each input array read at an index -/

/-- Entry (b, ch, j) of the merged input is the argument's entry (b, ch, j / 64, j % 64). -/
theorem inX_apply (c : Dev nD) (b : Fin 4) (ch : Fin 512) (j : Fin 16384) :
    inX m c (ix3 b ch j)
      = argX m c (ix4 b ch (⟨j.val / 64, by omega⟩ : Fin 256) (⟨j.val % 64, by omega⟩ : Fin 64)) := by
  rw [inX_eq]
  exact merge_apply _ _ b ch j

/-- The weight's first 512 columns (a change of float format is the identity). -/
theorem inW_apply (c : Dev nD) (o k : Fin 512) :
    inW m c (ix2 o k) = argW m c (ix2 o (⟨k.val, by omega⟩ : Fin 768)) := by
  rw [inW_eq, truncf_apply]
  exact slice2_axis1_apply 0 _ _ o k _ (by show k.val = 0 + k.val; omega)

/-- The per-batch bias column: the 256-long contraction of the per-batch vector with the weight's last 256
    columns, plus the bias. -/
theorem inSW_apply (c : Dev nD) (b : Fin 4) (o : Fin 512) :
    inSW m c (ix3 b o (0 : Fin 1))
      = (∑ a : Fin 256, argS m c (ix2 b a) * argW m c (ix2 o (⟨512 + a.val, by omega⟩ : Fin 768)))
        + argB m c (ix1 o) := by
  rw [inSW_eq, addUnit_apply, addf_apply, bias_apply]
  simp only [Host.dotGeneral]
  rw [PlainDot.dotGeneral_apply _ rfl rfl rfl rfl rfl rfl]
  refine congrArg (· + argB m c (ix1 o)) (Finset.sum_congr rfl fun a _ => ?_)
  rw [transpose_ix2_apply]
  exact congrArg (argS m c (ix2 b a) * ·) (slice2_axis1_apply 512 _ _ o a _ rfl)

theorem inLW_apply (c : Dev nD) (o : Fin 512) : inLW m c (ix2 o (0 : Fin 1)) = argLW m c (ix1 o) := by
  rw [inLW_eq]
  exact PlainDot.shapeCast_a_a1_apply _ _ o 0

theorem inLB_apply (c : Dev nD) (o : Fin 512) : inLB m c (ix2 o (0 : Fin 1)) = argLB m c (ix1 o) := by
  rw [inLB_eq]
  exact PlainDot.shapeCast_a_a1_apply _ _ o 0

theorem inA_apply (c : Dev nD) : inA m c (ix2 (0 : Fin 1) (0 : Fin 1)) = argA m c ix0 := by
  rw [inA_eq]
  exact scalar_apply _ _ _

end Cert.KernelIdeal.HostValue

end
-- ==== Proof.KernelRun.lean ====
/-
  The kernel program's run with its result named.

  After the region the output array [4, 512, 16384] holds `Blocks.regionOut` of the region's input arrays; the one
  host operation after the region splits the merged axis again, j = 64 · t + h, into [4, 512, 256, 64]. With
  the region's input arrays read back to the arguments (`HostValue`), entry (b, o, t, h) of the result is
  `ChannelNorm.outAt` of the arguments: the program's result array is `ChannelNorm.out`.
-/
import proofs.«169445_j40252433498680_1_alg».proof.Proof.Gen.KernelIdeal.Frame
import proofs.«169445_j40252433498680_1_alg».proof.Proof.KernelBlocks
import proofs.«169445_j40252433498680_1_alg».proof.Proof.KernelHost
import proofs.«169445_j40252433498680_1_alg».proof.Proof.ChannelNorm
import Idealize.ShloMosaic.Lib.StableHlo.Run
import Idealize.ShloMosaic.Lib.Pipeline.Value
import Idealize.ShloMosaic.Lib.ValueIdx

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat Cfg Window)
open Cert.KernelIdeal.HostValue

variable (m : (ℓ : Loc nD τ sig) → Buf (Elt Ideal) ℓ) (ρ : Dev nD → PrngReg)

/-- The region's output at (b, o, 64 · t + h), in terms of the arguments. -/
theorem regionOut_apply (c : Dev nD) (b : Fin 4) (o : Fin 512) (t : Fin 256) (h : Fin 64) :
    Blocks.regionOut (inX m c) (inW m c) (inSW m c) (inLW m c) (inLB m c) (inA m c)
        (ix3 b o (⟨t.val * 64 + h.val, by omega⟩ : Fin 16384))
      = ChannelNorm.outAt (argX m c) (argS m c) (argA m c) (argW m c) (argB m c) (argLW m c) (argLB m c) b o t h := by
  have hj : ∀ ch : Fin 512, inX m c (ix3 b ch (⟨t.val * 64 + h.val, by omega⟩ : Fin 16384)) = argX m c (ix4 b ch t h) := by
    intro ch
    rw [inX_apply]
    refine congrArg (argX m c) (funext fun a => Fin.ext ?_)
    match a with
    | ⟨0, _⟩ => rfl
    | ⟨1, _⟩ => rfl
    | ⟨2, _⟩ => show (t.val * 64 + h.val) / 64 = t.val; omega
    | ⟨3, _⟩ => show (t.val * 64 + h.val) % 64 = h.val; omega
  have e1 : (fun o' : Fin 512 => (∑ x : Fin 512, inW m c (ix2 o' x) * inX m c (ix3 b x (⟨t.val * 64 + h.val, by omega⟩ : Fin 16384)))
        + inSW m c (ix3 b o' (0 : Fin 1)))
      = ChannelNorm.preact (argX m c) (argS m c) (argW m c) (argB m c) b t h := by
    funext o'
    unfold ChannelNorm.preact
    rw [inSW_apply]
    refine congrArg (· + _) (Finset.sum_congr rfl fun x _ => ?_)
    rw [inW_apply, hj]
  have e2 : (fun ch : Fin 512 => inX m c (ix3 b ch (⟨t.val * 64 + h.val, by omega⟩ : Fin 16384))) = fun ch => argX m c (ix4 b ch t h) := funext hj
  have e3 : (fun o' : Fin 512 => inLW m c (ix2 o' (0 : Fin 1))) = fun o' => argLW m c (ix1 o') :=
    funext (inLW_apply m c)
  have e4 : (fun o' : Fin 512 => inLB m c (ix2 o' (0 : Fin 1))) = fun o' => argLB m c (ix1 o') :=
    funext (inLB_apply m c)
  have e5 : inA m c (ix2 (0 : Fin 1) (0 : Fin 1)) = argA m c ix0 := inA_apply m c
  show ChannelNorm.normed
      (fun o' : Fin 512 => (∑ x : Fin 512, inW m c (ix2 o' x) * inX m c (ix3 b x (⟨t.val * 64 + h.val, by omega⟩ : Fin 16384)))
        + inSW m c (ix3 b o' (0 : Fin 1)))
      (fun ch : Fin 512 => inX m c (ix3 b ch (⟨t.val * 64 + h.val, by omega⟩ : Fin 16384))) (fun o' : Fin 512 => inLW m c (ix2 o' (0 : Fin 1)))
      (fun o' : Fin 512 => inLB m c (ix2 o' (0 : Fin 1))) (inA m c (ix2 (0 : Fin 1) (0 : Fin 1))) o = _
  rw [e1, e2, e3, e4, e5]
  rfl

/-- What the host operation after the region leaves in the result buffer. -/
theorem tail_eq (c : Dev nD) :
    Pipeline.afterTail₀ cfgs (dats m) 0 (V0 m) [hostOps1] c main_v14
      = shapeCast S4x512x256x64 ((dats m 0 c).arrAt 6 cfg0.N) shapeCasts_S4x512x16384_S4x512x256x64 := by
  unfold Pipeline.afterTail₀
  show StableHlo.after hostOps1 _ (Proc.devRef .tc main_v14) = _
  after_results
  have hw := Pipeline.withArrays_arr spec0 launch0.win.arr_inj c (V0 m c) (fun w => (dats m 0 c).arrAt w cfg0.N) 6
  funext i
  show shapeCast S4x512x256x64 (Pipeline.withArrays spec0 c (V0 m c) (fun w => (dats m 0 c).arrAt w cfg0.N)
      (Proc.devRef .tc main_v13)) shapeCasts_S4x512x16384_S4x512x256x64 i = _
  exact congrFun (congrArg (fun A => shapeCast S4x512x256x64 A shapeCasts_S4x512x16384_S4x512x256x64) hw) i

/-- The result array is `ChannelNorm.out` of the argument arrays. -/
theorem result_eq (c : Dev nD) :
    Pipeline.afterTail₀ cfgs (dats m) 0 (V0 m) [hostOps1] c main_v14
      = ChannelNorm.out (argX m c) (argS m c) (argA m c) (argW m c) (argB m c) (argLW m c) (argLB m c) := by
  rw [tail_eq, Blocks.final]
  funext i
  obtain ⟨b, o, t, h, rfl⟩ : ∃ (b : Fin 4) (o : Fin 512) (t : Fin 256) (h : Fin 64), i = ix4 b o t h :=
    ⟨i 0, i 1, i 2, i 3, eq_ix4 i⟩
  rw [ChannelNorm.out_apply, ← regionOut_apply]
  refine shapeCast_apply _ shapeCasts_S4x512x16384_S4x512x256x64 (ix4 b o t h)
    (ix3 b o (⟨t.val * 64 + h.val, by omega⟩ : Fin 16384)) ?_
  rw [Shape.rowMajor_val_three, Shape.rowMajor_val_four]
  show (b.val * 512 + o.val) * 16384 + (t.val * 64 + h.val) = ((b.val * 512 + o.val) * 256 + t.val) * 64 + h.val
  ring

/-- Every weakly fair execution of the kernel program terminates with the result buffer at `ChannelNorm.out` of
    the arguments and the arguments unchanged. -/
theorem run : θ_run defs (onTc (τ := τ) (main (F := Ideal))) ⟨m, fun _ => 0, ρ⟩ fun r => ∀ c : Dev nD,
      r.2.mem ((c.tc : Thread nD τ).loc main_v14)
        = ChannelNorm.out (argX m c) (argS m c) (argA m c) (argW m c) (argB m c) (argLW m c) (argLB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨((h c).2 main_v14 (Pipeline.mem_restRefs_of main_v14 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.KernelValue

end
-- ==== Proof.RefValue.lean ====
/-
  The reference's result array, read index by index, is the function `ChannelNorm.out` of its argument arrays.
-/
import proofs.«169445_j40252433498680_1_alg».proof.Proof.Gen.ReferenceIdeal.Read
import proofs.«169445_j40252433498680_1_alg».proof.Proof.ChannelNorm

noncomputable section

namespace Cert.ReferenceIdeal.RefValue

open Cert.ReferenceIdeal Cert.ReferenceIdeal.Gen Idealize.ShloMosaic Idealize.ShloMosaic.TcCoe Idealize.SL.Sem
open Idealize.ShloMosaic.ValueIdx

open Cert.ReferenceIdeal.Read Cert.ChannelNorm

/-- The concatenation read at a last coordinate below 512 is the transposed input there. -/
theorem cat_left (x0 : S4x512x256x64.Idx → EReal) (x1 : S4x256.Idx → EReal)
    (b : Fin 4) (t : Fin 256) (h : Fin 64) (o : Fin 512) (c : Fin 512) :
    val_main_v32 (F := Ideal) x0 x1 (lidx_main_v33 (ix4 b t h o) ⟨c.val, by omega⟩) = x0 (ix4 b c t h) := by
  unfold val_main_v32
  rw [concatenate_pair_apply_left (s₁ := S4x256x64x512) (s₂ := S4x256x64x256) (3 : Fin S4x256x64x768.rank) _ _ _ _ rfl
    (ix4 b t h c : S4x256x64x512.Idx)
    (fun d => match d with | ⟨0, _⟩ => rfl | ⟨1, _⟩ => rfl | ⟨2, _⟩ => rfl | ⟨3, _⟩ => rfl)]
  rw [val_main_v0_apply]
  exact congrArg x0 (funext fun d => Fin.ext (by match d with | ⟨0, _⟩ => rfl | ⟨1, _⟩ => rfl | ⟨2, _⟩ => rfl | ⟨3, _⟩ => rfl))

/-- The concatenation read at a last coordinate 512 + a is the per-batch vector at a. -/
theorem cat_right (x0 : S4x512x256x64.Idx → EReal) (x1 : S4x256.Idx → EReal)
    (b : Fin 4) (t : Fin 256) (h : Fin 64) (o : Fin 512) (a : Fin 256) :
    val_main_v32 (F := Ideal) x0 x1 (lidx_main_v33 (ix4 b t h o) ⟨512 + a.val, by omega⟩) = x1 (ix2 b a) := by
  unfold val_main_v32
  rw [concatenate_pair_apply_right (s₁ := S4x256x64x512) (s₂ := S4x256x64x256) (3 : Fin S4x256x64x768.rank) _ _ _ _ rfl rfl
    (ix4 b t h a : S4x256x64x256.Idx)
    (fun d => match d with
      | ⟨0, _⟩ => (fun _ => rfl)
      | ⟨1, _⟩ => (fun _ => rfl)
      | ⟨2, _⟩ => (fun _ => rfl)
      | ⟨3, _⟩ => (fun hne => absurd rfl hne))
    (by show a.val + 512 = 512 + a.val; omega)]
  rw [val_main_v31_apply, val_main_v30_apply]
  exact congrArg x1 (funext fun d => Fin.ext (by match d with | ⟨0, _⟩ => rfl | ⟨1, _⟩ => rfl))

/-- The bias broadcast read at (b, t, h, o) is the bias at o. -/
theorem bias_at (x6 : S512.Idx → EReal) (b : Fin 4) (t : Fin 256) (h : Fin 64) (o : Fin 512) :
    val_main_v35 (F := Ideal) x6 (ix4 b t h o) = x6 (ix1 o) := by
  rw [val_main_v35_apply, val_main_v34_apply]
  exact congrArg x6 (funext fun d => Fin.ext (by match d with | ⟨0, _⟩ => rfl))

/-- The linear layer's result at (b, t, h, o) is the pre-activation in its split form. -/
theorem preact_at (x0 : S4x512x256x64.Idx → EReal) (x1 : S4x256.Idx → EReal) (x5 : S512x768.Idx → EReal)
    (x6 : S512.Idx → EReal) (b : Fin 4) (t : Fin 256) (h : Fin 64) (o : Fin 512) :
    val_main_v36 (F := Ideal) x0 x1 x5 x6 (ix4 b t h o) = preact x0 x1 x5 x6 b t h o := by
  rw [val_main_v36_apply, val_main_v33_apply, bias_at, Ideal.addf_def]
  have hw : ∀ k : Fin 768, ridx_main_v33 (ix4 b t h o) k = ix2 o k := fun k =>
    funext fun d => Fin.ext (by match d with | ⟨0, _⟩ => rfl | ⟨1, _⟩ => rfl)
  simp only [hw]
  exact contraction_split (fun k => val_main_v32 (F := Ideal) x0 x1 (lidx_main_v33 (ix4 b t h o) k))
    (fun k => x5 (ix2 o k)) (fun c => x0 (ix4 b c t h)) (fun a => x1 (ix2 b a)) (x6 (ix1 o))
    (fun c => cat_left x0 x1 b t h o c) (fun a => cat_right x0 x1 b t h o a)

/-- The PReLU stage at (b, t, h, o). -/
theorem prelu_at (x0 : S4x512x256x64.Idx → EReal) (x1 : S4x256.Idx → EReal) (x5 : S512x768.Idx → EReal)
    (x6 : S512.Idx → EReal) (x7 : S_.Idx → EReal) (b : Fin 4) (t : Fin 256) (h : Fin 64) (o : Fin 512) :
    val_main_v41 (F := Ideal) x0 x1 x5 x6 x7 (ix4 b t h o) = prelu (x7 ix0) (preact x0 x1 x5 x6 b t h o) := by
  rw [val_main_v41_apply, val_main_v38_apply, val_main_v40_apply, val_main_v39_apply, val_main_v37_apply,
    val_main_cst_5_apply, preact_at, Ideal.cmpf_def, Ideal.mulf_def, Ideal.ofBits_def]
  rfl

/-- The mean stage at (b, t, h, 0). -/
theorem mean_at (x0 : S4x512x256x64.Idx → EReal) (x1 : S4x256.Idx → EReal) (x5 : S512x768.Idx → EReal)
    (x6 : S512.Idx → EReal) (x7 : S_.Idx → EReal) (b : Fin 4) (t : Fin 256) (h : Fin 64) (z : Fin 1) :
    val_main_v45 (F := Ideal) x0 x1 x5 x6 x7 (ix4 b t h z)
      = mean fun k => prelu (x7 ix0) (preact x0 x1 x5 x6 b t h k) := by
  rw [val_main_v45_apply, val_main_v43_apply, val_main_v44_apply, val_main_cst_7_apply, val_main_v42_apply,
    val_main_cst_6_apply, Ideal.hostDivf_def, Ideal.ofBits_def, Ideal.ofBits_def, Ideal.ofBits_zero_f32, zero_add]
  unfold mean
  refine congrArg (fun s => Ideal.div s _) (Finset.sum_congr rfl fun k _ => ?_)
  exact (congrArg (val_main_v41 (F := Ideal) x0 x1 x5 x6 x7) (funext fun d => Fin.ext (by
    match d with | ⟨0, _⟩ => rfl | ⟨1, _⟩ => rfl | ⟨2, _⟩ => rfl | ⟨3, _⟩ => rfl))).trans (prelu_at x0 x1 x5 x6 x7 b t h k)

/-- The activation minus its mean (first copy of the subtraction) at (b, t, h, o). -/
theorem centered_at (x0 : S4x512x256x64.Idx → EReal) (x1 : S4x256.Idx → EReal) (x5 : S512x768.Idx → EReal)
    (x6 : S512.Idx → EReal) (x7 : S_.Idx → EReal) (b : Fin 4) (t : Fin 256) (h : Fin 64) (o : Fin 512) :
    val_main_v47 (F := Ideal) x0 x1 x5 x6 x7 (ix4 b t h o)
      = prelu (x7 ix0) (preact x0 x1 x5 x6 b t h o) - mean fun k => prelu (x7 ix0) (preact x0 x1 x5 x6 b t h k) := by
  have e : idx_main_v46 (ix4 b t h o) = ix4 b t h (0 : Fin 1) :=
    funext fun d => Fin.ext (by match d with | ⟨0, _⟩ => rfl | ⟨1, _⟩ => rfl | ⟨2, _⟩ => rfl | ⟨3, _⟩ => rfl)
  rw [val_main_v47_apply, val_main_v46_apply, e, mean_at, prelu_at, Ideal.subf_def]

/-- The activation minus its mean (second copy of the subtraction) at (b, t, h, o). -/
theorem centered_at' (x0 : S4x512x256x64.Idx → EReal) (x1 : S4x256.Idx → EReal) (x5 : S512x768.Idx → EReal)
    (x6 : S512.Idx → EReal) (x7 : S_.Idx → EReal) (b : Fin 4) (t : Fin 256) (h : Fin 64) (o : Fin 512) :
    val_main_v54 (F := Ideal) x0 x1 x5 x6 x7 (ix4 b t h o)
      = prelu (x7 ix0) (preact x0 x1 x5 x6 b t h o) - mean fun k => prelu (x7 ix0) (preact x0 x1 x5 x6 b t h k) := by
  have e : idx_main_v53 (ix4 b t h o) = ix4 b t h (0 : Fin 1) :=
    funext fun d => Fin.ext (by match d with | ⟨0, _⟩ => rfl | ⟨1, _⟩ => rfl | ⟨2, _⟩ => rfl | ⟨3, _⟩ => rfl)
  rw [val_main_v54_apply, val_main_v53_apply, e, mean_at, prelu_at, Ideal.subf_def]

/-- The variance stage at (b, t, h, 0). -/
theorem var_at (x0 : S4x512x256x64.Idx → EReal) (x1 : S4x256.Idx → EReal) (x5 : S512x768.Idx → EReal)
    (x6 : S512.Idx → EReal) (x7 : S_.Idx → EReal) (b : Fin 4) (t : Fin 256) (h : Fin 64) (z : Fin 1) :
    val_main_v52 (F := Ideal) x0 x1 x5 x6 x7 (ix4 b t h z)
      = var fun k => prelu (x7 ix0) (preact x0 x1 x5 x6 b t h k) := by
  rw [val_main_v52_apply, val_main_v50_apply, val_main_v51_apply, val_main_cst_9_apply, val_main_v49_apply,
    val_main_cst_8_apply, Ideal.hostDivf_def, Ideal.ofBits_def, Ideal.ofBits_def, Ideal.ofBits_zero_f32, zero_add]
  unfold var
  refine congrArg (fun s => Ideal.div s _) (Finset.sum_congr rfl fun k _ => ?_)
  have e : idx_main_v49 (idx_main_v50 (ix4 b t h z)) k = ix4 b t h k :=
    funext fun d => Fin.ext (by match d with | ⟨0, _⟩ => rfl | ⟨1, _⟩ => rfl | ⟨2, _⟩ => rfl | ⟨3, _⟩ => rfl)
  rw [e, val_main_v48_apply, centered_at, Ideal.mulf_def]

/-- The reciprocal square root of variance + ε, broadcast, at (b, t, h, o). -/
theorem rstd_at (x0 : S4x512x256x64.Idx → EReal) (x1 : S4x256.Idx → EReal) (x5 : S512x768.Idx → EReal)
    (x6 : S512.Idx → EReal) (x7 : S_.Idx → EReal) (b : Fin 4) (t : Fin 256) (h : Fin 64) (o : Fin 512) :
    val_main_v58 (F := Ideal) x0 x1 x5 x6 x7 (ix4 b t h o)
      = Ideal.rsqrt (var (fun k => prelu (x7 ix0) (preact x0 x1 x5 x6 b t h k)) + Ideal.ofBits .f32 0x322BCC77#32) := by
  have e : idx_main_v58 (ix4 b t h o) = ix4 b t h (0 : Fin 1) :=
    funext fun d => Fin.ext (by match d with | ⟨0, _⟩ => rfl | ⟨1, _⟩ => rfl | ⟨2, _⟩ => rfl | ⟨3, _⟩ => rfl)
  rw [val_main_v58_apply, e, val_main_v57_apply, val_main_v56_apply, val_main_v55_apply, val_main_cst_10_apply,
    var_at, Ideal.hostUnary_rsqrt_def, Ideal.addf_def, Ideal.ofBits_def]

/-- The last stage before the transposition, at (b, t, h, o), is the result's entry (b, o, t, h). -/
theorem out_at (x0 : S4x512x256x64.Idx → EReal) (x1 : S4x256.Idx → EReal) (x5 : S512x768.Idx → EReal)
    (x6 : S512.Idx → EReal) (x7 : S_.Idx → EReal) (x8 x9 : S512.Idx → EReal)
    (b : Fin 4) (o : Fin 512) (t : Fin 256) (h : Fin 64) :
    val_main_v66 (F := Ideal) x0 x1 x5 x6 x7 x8 x9 (ix4 b t h o) = outAt x0 x1 x7 x5 x6 x8 x9 b o t h := by
  have e0 : idx_main_v0 (ix4 b t h o) = ix4 b o t h :=
    funext fun d => Fin.ext (by match d with | ⟨0, _⟩ => rfl | ⟨1, _⟩ => rfl | ⟨2, _⟩ => rfl | ⟨3, _⟩ => rfl)
  have e8 : idx_main_v60 (idx_main_v61 (ix4 b t h o)) = ix1 o :=
    funext fun d => Fin.ext (by match d with | ⟨0, _⟩ => rfl)
  have e9 : idx_main_v63 (idx_main_v64 (ix4 b t h o)) = ix1 o :=
    funext fun d => Fin.ext (by match d with | ⟨0, _⟩ => rfl)
  rw [val_main_v66_apply, val_main_v65_apply, val_main_v62_apply, val_main_v59_apply, val_main_v0_apply, e0,
    val_main_v61_apply, val_main_v60_apply, e8, val_main_v64_apply, val_main_v63_apply, e9,
    centered_at', rstd_at, Ideal.addf_def, Ideal.addf_def, Ideal.mulf_def, Ideal.mulf_def]
  rfl

/-- The reference run's result term is `ChannelNorm.out` of the argument arrays. -/
theorem result_eq (m : (ℓ : Loc nD τ sig) → Buf (Elt Ideal) ℓ) (c : Dev nD) :
    Cert.ReferenceIdeal.Value.res_out0 (F := Ideal) m c
      = Cert.ChannelNorm.out (m ((c.tc : Thread nD τ).loc main_arg0)) (m ((c.tc : Thread nD τ).loc main_arg1))
          (m ((c.tc : Thread nD τ).loc main_arg7)) (m ((c.tc : Thread nD τ).loc main_arg5))
          (m ((c.tc : Thread nD τ).loc main_arg6)) (m ((c.tc : Thread nD τ).loc main_arg8))
          (m ((c.tc : Thread nD τ).loc main_arg9)) := by
  funext i
  obtain ⟨b, o, t, h, rfl⟩ : ∃ (b : Fin 4) (o : Fin 512) (t : Fin 256) (h : Fin 64), i = ix4 b o t h :=
    ⟨i 0, i 1, i 2, i 3, eq_ix4 i⟩
  have e : idx_main_v67 (ix4 b o t h) = ix4 b t h o :=
    funext fun d => Fin.ext (by match d with | ⟨0, _⟩ => rfl | ⟨1, _⟩ => rfl | ⟨2, _⟩ => rfl | ⟨3, _⟩ => rfl)
  refine (congrFun (val_main_v67_eq (F := Ideal) m c) (ix4 b o t h)).trans ?_
  rw [val_main_v67_apply, e, out_at]
  rfl

end Cert.ReferenceIdeal.RefValue

end
-- ==== Proof.lean ====
/-
  The kernel and its reference compute one function of their ten arguments.

  Both take an input x [4, 512, 256, 64] (batch, channel, time, feature), a per-batch vector s [4, 256], a
  linear layer W [512, 768], b [512] over the concatenation of x's 512 channels with s, a PReLU slope, and a
  layer normalization's scale and shift over the 512 output channels; three further arguments feed only a
  branch whose value is never used. At every position (batch, time, feature) the result's channel vector is
      x + LayerNorm (PReLU (W · (x ++ s) + b)).
  The reference transposes the channels last, concatenates, contracts over all 768 columns at once and transposes
  back. The kernel keeps the channels first, merges time and feature into one axis of 16384 positions, contracts
  the first 512 columns of W with x tile by tile on a 4 × 16 grid, and adds the contraction of the last 256
  columns with s, computed once per batch, together with the bias. The two pre-activations are one extended real
  by splitting the 768-long sum at 512 and reassociating (`ChannelNorm.contraction_split`); everything after it is
  the same operations in the same order on both sides (`ChannelNorm.normed`). No finiteness of the inputs is used.

  * `ChannelNorm`: the common function, `ChannelNorm.out`, and the split of the contraction.
  * `KernelPayload`, `KernelBlocks`, `KernelHost`, `KernelRun`: the kernel program's result array is `ChannelNorm.out`
    of its arguments (one grid point's stored tile at an entry; the tiles cover the output array; the arrays the
    region reads, in terms of the arguments; the run with its result named).
  * `RefValue`: the reference program's result array is `ChannelNorm.out` of its arguments.
  The three frames are the generated ones (the reference's is its generated run with the result dropped), and the
  kernel's idealization rewrote nothing, so the preservation claim is trivial.
-/
import proofs.«169445_j40252433498680_1_alg».proof.Defs
import proofs.«169445_j40252433498680_1_alg».proof.Proof.Gen.Kernel
import proofs.«169445_j40252433498680_1_alg».proof.Proof.Gen.Kernel.Skeleton
import proofs.«169445_j40252433498680_1_alg».proof.Proof.Gen.Kernel.Launch
import proofs.«169445_j40252433498680_1_alg».proof.Proof.Gen.Kernel.Points
import proofs.«169445_j40252433498680_1_alg».proof.Proof.Gen.Kernel.Frame
import proofs.«169445_j40252433498680_1_alg».proof.Proof.Gen.KernelIdeal
import proofs.«169445_j40252433498680_1_alg».proof.Proof.Gen.KernelIdeal.Skeleton
import proofs.«169445_j40252433498680_1_alg».proof.Proof.Gen.KernelIdeal.Launch
import proofs.«169445_j40252433498680_1_alg».proof.Proof.Gen.KernelIdeal.Points
import proofs.«169445_j40252433498680_1_alg».proof.Proof.Gen.KernelIdeal.Frame
import proofs.«169445_j40252433498680_1_alg».proof.Proof.Gen.ReferenceIdeal
import proofs.«169445_j40252433498680_1_alg».proof.Proof.Gen.Pre_finite_inputs
import proofs.«169445_j40252433498680_1_alg».proof.Proof.Gen.ReferenceIdeal.Run
import proofs.«169445_j40252433498680_1_alg».proof.Proof.Gen.ReferenceIdeal.Read
import proofs.«169445_j40252433498680_1_alg».proof.Proof.KernelRun
import proofs.«169445_j40252433498680_1_alg».proof.Proof.RefValue
import Idealize.ShloMosaic.Adequacy
import Idealize.ShloMosaic.Init

noncomputable section

namespace Cert.Proof

open Idealize.ShloMosaic Idealize.SL.Sem

/-- The kernel program runs and keeps its arguments, at the word level. -/
theorem frame_kernel : Cert.frame_Kernel := fun m ρ _ => Cert.Kernel.Gen.frame m ρ

/-- The same at the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result `ChannelNorm.out` of the kernel's
    arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, -, -, -, h5, h6, h7, h8, h9⟩ := hagree c
  refine (Cert.ReferenceIdeal.RefValue.result_eq m' c).trans ?_
  rw [h0, h1, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
